-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x256x256 : Shape := ⟨4, ![1, 128, 256, 256]⟩
abbrev S1x128x256 : Shape := ⟨3, ![1, 128, 256]⟩
abbrev S1x8x256x256 : Shape := ⟨4, ![1, 8, 256, 256]⟩
abbrev S768x256 : Shape := ⟨2, ![768, 256]⟩
abbrev S256x256 : Shape := ⟨2, ![256, 256]⟩
abbrev S256 : Shape := ⟨1, ![256]⟩
abbrev S_ : Shape := ⟨0, ![]⟩

class Facts : Prop where
  bcast_S_S1x128x256x256 : S_.BroadcastsInDim S1x128x256x256 (![] : Fin 0 → Fin S1x128x256x256.rank)
  reducesTo_S1x128x256x256_S_d0_1_2_3 : S1x128x256x256.ReducesTo [0, 1, 2, 3] S_
  h_S_ : 0 < S_.numel
  bcast_S_S1x128x256 : S_.BroadcastsInDim S1x128x256 (![] : Fin 0 → Fin S1x128x256.rank)
  reducesTo_S1x128x256_S_d0_1_2 : S1x128x256.ReducesTo [0, 1, 2] S_
  bcast_S_S1x8x256x256 : S_.BroadcastsInDim S1x8x256x256 (![] : Fin 0 → Fin S1x8x256x256.rank)
  reducesTo_S1x8x256x256_S_d0_1_2_3 : S1x8x256x256.ReducesTo [0, 1, 2, 3] S_
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S1x128x256x256 .f32) (main_arg1 : FVec F S1x128x256 .f32) (main_arg2 : FVec F S1x8x256x256 .f32) (main_arg3 : FVec F S768x256 .f32) (main_arg4 : FVec F S256x256 .f32) (main_arg5 : FVec F S256 .f32) (main_arg6 : FVec F S256x256 .f32) (main_arg7 : FVec F S256 .f32) : IVec S_ 1 :=
  let main_v0 : FVec F S1x128x256x256 .f32 := Host.absf main_arg0
  let main_cst : FVec F S_ .f32 := constant S_ .f32 0x7F800000#32
  let main_v1 : FVec F S1x128x256x256 .f32 := broadcastInDim S1x128x256x256 ![] bcast_S_S1x128x256x256 main_cst
  let main_v2 : IVec S1x128x256x256 1 := cmpf .olt main_v0 main_v1
  let main_c : IVec S_ 1 := constantI S_ 1 1#1
  let main_v3 : IVec S_ 1 := (fun x v => Host.reduce IntOp.andi x v reducesTo_S1x128x256x256_S_d0_1_2_3 h_S_) main_v2 main_c
  let main_v4 : FVec F S1x128x256 .f32 := Host.absf main_arg1
  let main_cst_0 : FVec F S_ .f32 := constant S_ .f32 0x7F800000#32
  let main_v5 : FVec F S1x128x256 .f32 := broadcastInDim S1x128x256 ![] bcast_S_S1x128x256 main_cst_0
  let main_v6 : IVec S1x128x256 1 := cmpf .olt main_v4 main_v5
  let main_c_1 : IVec S_ 1 := constantI S_ 1 1#1
  let main_v7 : IVec S_ 1 := (fun x v => Host.reduce IntOp.andi x v reducesTo_S1x128x256_S_d0_1_2 h_S_) main_v6 main_c_1
  let main_v8 : IVec S_ 1 := andi main_v3 main_v7
  let main_v9 : FVec F S1x8x256x256 .f32 := Host.absf main_arg2
  let main_cst_2 : FVec F S_ .f32 := constant S_ .f32 0x7F800000#32
  let main_v10 : FVec F S1x8x256x256 .f32 := broadcastInDim S1x8x256x256 ![] bcast_S_S1x8x256x256 main_cst_2
  let main_v11 : IVec S1x8x256x256 1 := cmpf .olt main_v9 main_v10
  let main_c_3 : IVec S_ 1 := constantI S_ 1 1#1
  let main_v12 : IVec S_ 1 := (fun x v => Host.reduce IntOp.andi x v reducesTo_S1x8x256x256_S_d0_1_2_3 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_v13 main_v16
-- ==== Kernel.lean ====
abbrev S1x128x256x256 : Shape := ⟨4, ![1, 128, 256, 256]⟩
abbrev S1x128x256 : Shape := ⟨3, ![1, 128, 256]⟩
abbrev S1x8x256x256 : Shape := ⟨4, ![1, 8, 256, 256]⟩
abbrev S768x256 : Shape := ⟨2, ![768, 256]⟩
abbrev S256x256 : Shape := ⟨2, ![256, 256]⟩
abbrev S256 : Shape := ⟨1, ![256]⟩
abbrev S1x128x1x256 : Shape := ⟨4, ![1, 128, 1, 256]⟩
abbrev S256x768 : Shape := ⟨2, ![256, 768]⟩
abbrev S1x8x1x256 : Shape := ⟨4, ![1, 8, 1, 256]⟩
abbrev S8x256x256 : Shape := ⟨3, ![8, 256, 256]⟩
abbrev S2048x256 : Shape := ⟨2, ![2048, 256]⟩
abbrev S2048x768 : Shape := ⟨2, ![2048, 768]⟩
abbrev S1x256 : Shape := ⟨2, ![1, 256]⟩
abbrev S1x1x1x256 : Shape := ⟨4, ![1, 1, 1, 256]⟩
abbrev S256x32 : Shape := ⟨2, ![256, 32]⟩
abbrev S32x256 : Shape := ⟨2, ![32, 256]⟩
abbrev S1x1x256x256 : Shape := ⟨4, ![1, 1, 256, 256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S1x128x256x256, .f32⟩
  | .hbm, ⟨1, _⟩ => ⟨S1x128x256, .f32⟩
  | .hbm, ⟨2, _⟩ => ⟨S1x8x256x256, .f32⟩
  | .hbm, ⟨3, _⟩ => ⟨S768x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x128x1x256, .f32⟩
  | .hbm, ⟨9, _⟩ => ⟨S256x768, .f32⟩
  | .hbm, ⟨10, _⟩ => ⟨S256x768, .bf16⟩
  | .hbm, ⟨11, _⟩ => ⟨S256x256, .f32⟩
  | .hbm, ⟨12, _⟩ => ⟨S256x256, .bf16⟩
  | .hbm, ⟨13, _⟩ => ⟨S256x256, .f32⟩
  | .hbm, ⟨14, _⟩ => ⟨S256x256, .bf16⟩
  | .hbm, ⟨15, _⟩ => ⟨S1x128x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x8x1x256, .f32⟩
  | .local _ .vmem, ⟨3, _⟩ => ⟨S1x8x1x256, .f32⟩
  | .local _ .vmem, ⟨4, _⟩ => ⟨S1x8x256x256, .f32⟩
  | .local _ .vmem, ⟨5, _⟩ => ⟨S256x768, .bf16⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S1x8x256x256, .f32⟩
  | .local _ .vmem, ⟨11, _⟩ => ⟨S1x8x256x256, .f32⟩
  | _, _ => ⟨S1x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S1x128x256_S1x128x1x256_0_1_3 : S1x128x256.BroadcastsInDim S1x128x1x256 (![0, 1, 3] : Fin 3 → Fin S1x128x1x256.rank)
  transposes_S768x256_S256x768_1_0 : S768x256.Transposes [1, 0] S256x768
  bitsLt_bf16_f32 : FTy.bits .bf16 < FTy.bits .f32
  transposes_S256x256_S256x256_1_0 : S256x256.Transposes [1, 0] S256x256
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  shapeCasts_S8x256x256_S2048x256 : S8x256x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  slices_S2048x768_o0_0_S256x768 : S2048x768.Slices ![0, 0] S256x768
  slices_S256x768_o0_0_S256x256 : S256x768.Slices ![0, 0] S256x256
  slices_S256x768_o0_256_S256x256 : S256x768.Slices ![0, 256] S256x256
  slices_S256x768_o0_512_S256x256 : S256x768.Slices ![0, 512] S256x256
  inb_S1x8x1x256_S1x1x1x256_0_0_0_0 : ∀ a, (![0, 0, 0, 0] : Fin 4 → Nat) a + S1x1x1x256.size a ≤ S1x8x1x256.size a
  h_S1x1x1x256 : 0 < S1x1x1x256.numel
  shapeCasts_S1x1x1x256_S1x256 : S1x1x1x256.ShapeCasts S1x256
  slices_S256x256_o0_0_S256x32 : S256x256.Slices ![0, 0] S256x32
  transposes_S256x32_p1_0_S32x256 : S256x32.Transposes [1, 0] S32x256
  inb_S1x8x256x256_S1x1x256x256_0_0_0_0 : ∀ a, (![0, 0, 0, 0] : Fin 4 → Nat) a + S1x1x256x256.size a ≤ S1x8x256x256.size a
  h_S1x1x256x256 : 0 < S1x1x256x256.numel
  shapeCasts_S1x1x256x256_S256x256 : S1x1x256x256.ShapeCasts S256x256
  broadcasts_S1x256_S256x256 : S1x256.Broadcasts S256x256
  reduces_S256x256_S256 : S256x256.Reduces [1] S256
  shapeCasts_S256_S256x1 : S256.ShapeCasts S256x1
  broadcasts_S256x1_S256x256 : S256x1.Broadcasts S256x256
  slices_S256x256_o0_32_S256x32 : S256x256.Slices ![0, 32] S256x32
  inb_S1x8x256x256_S1x1x256x256_0_1_0_0 : ∀ a, (![0, 1, 0, 0] : Fin 4 → Nat) a + S1x1x256x256.size a ≤ S1x8x256x256.size a
  slices_S256x256_o0_64_S256x32 : S256x256.Slices ![0, 64] S256x32
  inb_S1x8x256x256_S1x1x256x256_0_2_0_0 : ∀ a, (![0, 2, 0, 0] : Fin 4 → Nat) a + S1x1x256x256.size a ≤ S1x8x256x256.size a
  slices_S256x256_o0_96_S256x32 : S256x256.Slices ![0, 96] S256x32
  inb_S1x8x256x256_S1x1x256x256_0_3_0_0 : ∀ a, (![0, 3, 0, 0] : Fin 4 → Nat) a + S1x1x256x256.size a ≤ S1x8x256x256.size a
  slices_S256x256_o0_128_S256x32 : S256x256.Slices ![0, 128] S256x32
  inb_S1x8x256x256_S1x1x256x256_0_4_0_0 : ∀ a, (![0, 4, 0, 0] : Fin 4 → Nat) a + S1x1x256x256.size a ≤ S1x8x256x256.size a
  slices_S256x256_o0_160_S256x32 : S256x256.Slices ![0, 160] S256x32
  inb_S1x8x256x256_S1x1x256x256_0_5_0_0 : ∀ a, (![0, 5, 0, 0] : Fin 4 → Nat) a + S1x1x256x256.size a ≤ S1x8x256x256.size a
  slices_S256x256_o0_192_S256x32 : S256x256.Slices ![0, 192] S256x32
  inb_S1x8x256x256_S1x1x256x256_0_6_0_0 : ∀ a, (![0, 6, 0, 0] : Fin 4 → Nat) a + S1x1x256x256.size a ≤ S1x8x256x256.size a
  slices_S256x256_o0_224_S256x32 : S256x256.Slices ![0, 224] S256x32
  inb_S1x8x256x256_S1x1x256x256_0_7_0_0 : ∀ a, (![0, 7, 0, 0] : Fin 4 → Nat) a + S1x1x256x256.size a ≤ S1x8x256x256.size a
  concatenates_S256x32_S256x32_S256x32_S256x32_S256x32_S256x32_S256x32_S256x32_S256x256_d1 : Shape.Concatenates [S256x32, S256x32, S256x32, S256x32, S256x32, S256x32, S256x32, S256x32] S256x256 1
  slices_S2048x768_o256_0_S256x768 : S2048x768.Slices ![256, 0] S256x768
  inb_S1x8x1x256_S1x1x1x256_0_1_0_0 : ∀ a, (![0, 1, 0, 0] : Fin 4 → Nat) a + S1x1x1x256.size a ≤ S1x8x1x256.size a
  slices_S2048x768_o512_0_S256x768 : S2048x768.Slices ![512, 0] S256x768
  inb_S1x8x1x256_S1x1x1x256_0_2_0_0 : ∀ a, (![0, 2, 0, 0] : Fin 4 → Nat) a + S1x1x1x256.size a ≤ S1x8x1x256.size a
  slices_S2048x768_o768_0_S256x768 : S2048x768.Slices ![768, 0] S256x768
  inb_S1x8x1x256_S1x1x1x256_0_3_0_0 : ∀ a, (![0, 3, 0, 0] : Fin 4 → Nat) a + S1x1x1x256.size a ≤ S1x8x1x256.size a
  slices_S2048x768_o1024_0_S256x768 : S2048x768.Slices ![1024, 0] S256x768
  inb_S1x8x1x256_S1x1x1x256_0_4_0_0 : ∀ a, (![0, 4, 0, 0] : Fin 4 → Nat) a + S1x1x1x256.size a ≤ S1x8x1x256.size a
  slices_S2048x768_o1280_0_S256x768 : S2048x768.Slices ![1280, 0] S256x768
  inb_S1x8x1x256_S1x1x1x256_0_5_0_0 : ∀ a, (![0, 5, 0, 0] : Fin 4 → Nat) a + S1x1x1x256.size a ≤ S1x8x1x256.size a
  slices_S2048x768_o1536_0_S256x768 : S2048x768.Slices ![1536, 0] S256x768
  inb_S1x8x1x256_S1x1x1x256_0_6_0_0 : ∀ a, (![0, 6, 0, 0] : Fin 4 → Nat) a + S1x1x1x256.size a ≤ S1x8x1x256.size a
  slices_S2048x768_o1792_0_S256x768 : S2048x768.Slices ![1792, 0] S256x768
  inb_S1x8x1x256_S1x1x1x256_0_7_0_0 : ∀ a, (![0, 7, 0, 0] : Fin 4 → Nat) a + S1x1x1x256.size a ≤ S1x8x1x256.size a
  concatenates_S256x256_S256x256_S256x256_S256x256_S256x256_S256x256_S256x256_S256x256_S2048x256_d0 : Shape.Concatenates [S256x256, S256x256, S256x256, S256x256, S256x256, S256x256, S256x256, S256x256] S2048x256 0
  shapeCasts_S2048x256_S8x256x256 : S2048x256.ShapeCasts S8x256x256
  shapeCasts_S8x256x256_S1x8x256x256 : S8x256x256.ShapeCasts S1x8x256x256
  dot_S2048x256_S256x768_S2048x768_1_0_0_1_n_n_wf : DotDims.WF S2048x256 S256x768 S2048x768 [1] [0] [0] [1] [] []
  dot_S2048x256_S256x256_S2048x256_1_0_0_1_n_n_wf : DotDims.WF S2048x256 S256x256 S2048x256 [1] [0] [0] [1] [] []
  dot_S256x32_S32x256_S256x256_1_0_0_1_n_n_wf : DotDims.WF S256x32 S32x256 S256x256 [1] [0] [0] [1] [] []
  dot_S256x256_S256x32_S256x32_1_0_0_1_n_n_wf : DotDims.WF S256x256 S256x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S1x128x256x256.size a
  hwx0_0 : ∀ i : grid0.Coords, EltTy.bits .f32 = 32 ∨ (Rect.block (s := S1x128x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1x256.size a ≤ S1x128x1x256.size a
  hwx0_1 : ∀ i : grid0.Coords, EltTy.bits .f32 = 32 ∨ (Rect.block (s := S1x128x1x256) S1x8x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S1x8x256x256.size a
  hwx0_2 : ∀ i : grid0.Coords, EltTy.bits .f32 = 32 ∨ (Rect.block (s := S1x8x256x256) S1x8x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x256x256.size a ≤ S1x128x256x256.size a
  hwx0_8 : ∀ i : grid0.Coords, EltTy.bits .f32 = 32 ∨ (Rect.block (s := S1x128x256x256) S1x8x256x256.size (cc0_transform_8 i) (hinb0_8 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x32_S32x256_S256x256_1_0_0_1_n_n : DotDims S256x32 S32x256 S256x256 where
  lhsContracting := [1]
  rhsContracting := [0]
  lhsNonContracting := [0]
  rhsNonContracting := [1]
  lhsBatch := []
  rhsBatch := []
  wf := dot_S256x32_S32x256_S256x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x8x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x128x256x256 : Shape := ⟨4, ![1, 128, 256, 256]⟩
abbrev S1x128x256 : Shape := ⟨3, ![1, 128, 256]⟩
abbrev S1x8x256x256 : Shape := ⟨4, ![1, 8, 256, 256]⟩
abbrev S768x256 : Shape := ⟨2, ![768, 256]⟩
abbrev S256x256 : Shape := ⟨2, ![256, 256]⟩
abbrev S256 : Shape := ⟨1, ![256]⟩
abbrev S1x128x256x768 : Shape := ⟨4, ![1, 128, 256, 768]⟩
abbrev S1x128x256x8x32 : Shape := ⟨5, ![1, 128, 256, 8, 32]⟩
abbrev S1x128x8x256x32 : Shape := ⟨5, ![1, 128, 8, 256, 32]⟩
abbrev S_ : Shape := ⟨0, ![]⟩
abbrev S1x128x8x256x256 : Shape := ⟨5, ![1, 128, 8, 256, 256]⟩
abbrev S1x128x1x1x256 : Shape := ⟨5, ![1, 128, 1, 1, 256]⟩
abbrev S1x1x8x256x256 : Shape := ⟨5, ![1, 1, 8, 256, 256]⟩
abbrev S1x128x8x256 : Shape := ⟨4, ![1, 128, 8, 256]⟩
abbrev S1x128x8x256x1 : Shape := ⟨5, ![1, 128, 8, 256, 1]⟩
abbrev S1x1x1x256 : Shape := ⟨4, ![1, 1, 1, 256]⟩

abbrev nBuf : Space → Nat
  | .hbm => 68
  | .vmem => 0
  | .smem => 0
  | _ => 0

abbrev bufTy : (tb : Table) → Fin (tcTables nBuf tb) → BufTy
  | .hbm, ⟨0, _⟩ => ⟨S1x128x256x256, .f32⟩
  | .hbm, ⟨1, _⟩ => ⟨S1x128x256, .f32⟩
  | .hbm, ⟨2, _⟩ => ⟨S1x8x256x256, .f32⟩
  | .hbm, ⟨3, _⟩ => ⟨S768x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x128x256x768, .f32⟩
  | .hbm, ⟨9, _⟩ => ⟨S1x128x256x256, .f32⟩
  | .hbm, ⟨10, _⟩ => ⟨S1x128x256x256, .f32⟩
  | .hbm, ⟨11, _⟩ => ⟨S1x128x256x256, .f32⟩
  | .hbm, ⟨12, _⟩ => ⟨S1x128x256x8x32, .f32⟩
  | .hbm, ⟨13, _⟩ => ⟨S1x128x8x256x32, .f32⟩
  | .hbm, ⟨14, _⟩ => ⟨S_, .f32⟩
  | .hbm, ⟨15, _⟩ => ⟨S1x128x8x256x32, .f32⟩
  | .hbm, ⟨16, _⟩ => ⟨S1x128x8x256x32, .f32⟩
  | .hbm, ⟨17, _⟩ => ⟨S1x128x256x8x32, .f32⟩
  | .hbm, ⟨18, _⟩ => ⟨S1x128x8x256x32, .f32⟩
  | .hbm, ⟨19, _⟩ => ⟨S1x128x256x8x32, .f32⟩
  | .hbm, ⟨20, _⟩ => ⟨S1x128x8x256x32, .f32⟩
  | .hbm, ⟨21, _⟩ => ⟨S1x128x8x256x256, .f32⟩
  | .hbm, ⟨22, _⟩ => ⟨S1x128x1x1x256, .f32⟩
  | .hbm, ⟨23, _⟩ => ⟨S_, .f32⟩
  | .hbm, ⟨24, _⟩ => ⟨S1x128x1x1x256, .f32⟩
  | .hbm, ⟨25, _⟩ => ⟨S1x128x1x1x256, .f32⟩
  | .hbm, ⟨26, _⟩ => ⟨S_, .f32⟩
  | .hbm, ⟨27, _⟩ => ⟨S1x128x1x1x256, .f32⟩
  | .hbm, ⟨28, _⟩ => ⟨S1x128x1x1x256, .f32⟩
  | .hbm, ⟨29, _⟩ => ⟨S1x128x8x256x256, .f32⟩
  | .hbm, ⟨30, _⟩ => ⟨S1x128x8x256x256, .f32⟩
  | .hbm, ⟨31, _⟩ => ⟨S1x1x8x256x256, .f32⟩
  | .hbm, ⟨32, _⟩ => ⟨S1x128x8x256x256, .f32⟩
  | .hbm, ⟨33, _⟩ => ⟨S1x128x8x256x256, .f32⟩
  | .hbm, ⟨34, _⟩ => ⟨S_, .f32⟩
  | .hbm, ⟨35, _⟩ => ⟨S1x128x8x256, .f32⟩
  | .hbm, ⟨36, _⟩ => ⟨S_, .f32⟩
  | .hbm, ⟨37, _⟩ => ⟨S1x128x8x256, .f32⟩
  | .hbm, ⟨38, _⟩ => ⟨S1x128x8x256, .f32⟩
  | .hbm, ⟨39, _⟩ => ⟨S1x128x8x256x1, .f32⟩
  | .hbm, ⟨40, _⟩ => ⟨S1x128x8x256x256, .f32⟩
  | .hbm, ⟨41, _⟩ => ⟨S1x128x8x256x256, .f32⟩
  | .hbm, ⟨42, _⟩ => ⟨S1x128x8x256x256, .f32⟩
  | .hbm, ⟨43, _⟩ => ⟨S_, .f32⟩
  | .hbm, ⟨44, _⟩ => ⟨S1x128x8x256, .f32⟩
  | .hbm, ⟨45, _⟩ => ⟨S1x128x8x256x1, .f32⟩
  | .hbm, ⟨46, _⟩ => ⟨S1x128x8x256x256, .f32⟩
  | .hbm, ⟨47, _⟩ => ⟨S1x128x8x256x256, .f32⟩
  | .hbm, ⟨48, _⟩ => ⟨S1x128x8x256x32, .f32⟩
  | .hbm, ⟨49, _⟩ => ⟨S1x128x256x8x32, .f32⟩
  | .hbm, ⟨50, _⟩ => ⟨S1x128x256x256, .f32⟩
  | .hbm, ⟨51, _⟩ => ⟨S1x128x256x256, .f32⟩
  | .hbm, ⟨52, _⟩ => ⟨S1x1x1x256, .f32⟩
  | .hbm, ⟨53, _⟩ => ⟨S1x128x256x256, .f32⟩
  | .hbm, ⟨54, _⟩ => ⟨S1x128x256x256, .f32⟩
  | .hbm, ⟨55, _⟩ => ⟨S1x128x256x256, .f32⟩
  | .hbm, ⟨56, _⟩ => ⟨S1x128x256x256, .f32⟩
  | .hbm, ⟨57, _⟩ => ⟨S_, .f32⟩
  | .hbm, ⟨58, _⟩ => ⟨S1x128x256x256, .f32⟩
  | .hbm, ⟨59, _⟩ => ⟨S1x128x256x256, .f32⟩
  | .hbm, ⟨60, _⟩ => ⟨S_, .f32⟩
  | .hbm, ⟨61, _⟩ => ⟨S1x128x256x256, .f32⟩
  | .hbm, ⟨62, _⟩ => ⟨S1x128x256x256, .f32⟩
  | .hbm, ⟨63, _⟩ => ⟨S1x128x256x256, .f32⟩
  | .hbm, ⟨64, _⟩ => ⟨S1x128x256x256, .f32⟩
  | .hbm, ⟨65, _⟩ => ⟨S1x1x1x256, .f32⟩
  | .hbm, ⟨66, _⟩ => ⟨S1x128x256x256, .f32⟩
  | .hbm, ⟨67, _⟩ => ⟨S1x128x256x256, .f32⟩
  | _, _ => ⟨S1x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  slices_S1x128x256x768_S1x128x256x256_0_0_0_0 : S1x128x256x768.Slices ![0, 0, 0, 0] S1x128x256x256
  slices_S1x128x256x768_S1x128x256x256_0_0_0_256 : S1x128x256x768.Slices ![0, 0, 0, 256] S1x128x256x256
  slices_S1x128x256x768_S1x128x256x256_0_0_0_512 : S1x128x256x768.Slices ![0, 0, 0, 512] S1x128x256x256
  shapeCasts_S1x128x256x256_S1x128x256x8x32 : S1x128x256x256.ShapeCasts S1x128x256x8x32
  transposes_S1x128x256x8x32_S1x128x8x256x32_0_1_3_2_4 : S1x128x256x8x32.Transposes [0, 1, 3, 2, 4] S1x128x8x256x32
  bcast_S_S1x128x8x256x32 : S_.BroadcastsInDim S1x128x8x256x32 (![] : Fin 0 → Fin S1x128x8x256x32.rank)
  bcast_S1x128x256_S1x128x1x1x256_0_1_4 : S1x128x256.BroadcastsInDim S1x128x1x1x256 (![0, 1, 4] : Fin 3 → Fin S1x128x1x1x256.rank)
  bcast_S_S1x128x1x1x256 : S_.BroadcastsInDim S1x128x1x1x256 (![] : Fin 0 → Fin S1x128x1x1x256.rank)
  bcast_S1x128x1x1x256_S1x128x8x256x256_0_1_2_3_4 : S1x128x1x1x256.BroadcastsInDim S1x128x8x256x256 (![0, 1, 2, 3, 4] : Fin 5 → Fin S1x128x8x256x256.rank)
  bcast_S1x8x256x256_S1x1x8x256x256_0_2_3_4 : S1x8x256x256.BroadcastsInDim S1x1x8x256x256 (![0, 2, 3, 4] : Fin 4 → Fin S1x1x8x256x256.rank)
  bcast_S1x1x8x256x256_S1x128x8x256x256_0_1_2_3_4 : S1x1x8x256x256.BroadcastsInDim S1x128x8x256x256 (![0, 1, 2, 3, 4] : Fin 5 → Fin S1x128x8x256x256.rank)
  reducesTo_S1x128x8x256x256_S1x128x8x256_d4 : S1x128x8x256x256.ReducesTo [4] S1x128x8x256
  h_S_ : 0 < S_.numel
  bcast_S_S1x128x8x256 : S_.BroadcastsInDim S1x128x8x256 (![] : Fin 0 → Fin S1x128x8x256.rank)
  bcast_S1x128x8x256_S1x128x8x256x1_0_1_2_3 : S1x128x8x256.BroadcastsInDim S1x128x8x256x1 (![0, 1, 2, 3] : Fin 4 → Fin S1x128x8x256x1.rank)
  bcast_S1x128x8x256x1_S1x128x8x256x256_0_1_2_3_4 : S1x128x8x256x1.BroadcastsInDim S1x128x8x256x256 (![0, 1, 2, 3, 4] : Fin 5 → Fin S1x128x8x256x256.rank)
  transposes_S1x128x8x256x32_S1x128x256x8x32_0_1_3_2_4 : S1x128x8x256x32.Transposes [0, 1, 3, 2, 4] S1x128x256x8x32
  shapeCasts_S1x128x256x8x32_S1x128x256x256 : S1x128x256x8x32.ShapeCasts S1x128x256x256
  bcast_S256_S1x1x1x256_3 : S256.BroadcastsInDim S1x1x1x256 (![3] : Fin 1 → Fin S1x1x1x256.rank)
  bcast_S1x1x1x256_S1x128x256x256_0_1_2_3 : S1x1x1x256.BroadcastsInDim S1x128x256x256 (![0, 1, 2, 3] : Fin 4 → Fin S1x128x256x256.rank)
  bcast_S_S1x128x256x256 : S_.BroadcastsInDim S1x128x256x256 (![] : Fin 0 → Fin S1x128x256x256.rank)
  dot_S1x128x256x256_S768x256_S1x128x256x768_3_1_012_0_n_n_wf : DotDims.WF S1x128x256x256 S768x256 S1x128x256x768 [3] [1] [0, 1, 2] [0] [] []
  dot_S1x128x8x256x32_S1x128x8x256x32_S1x128x8x256x256_4_4_3_3_012_012_wf : DotDims.WF S1x128x8x256x32 S1x128x8x256x32 S1x128x8x256x256 [4] [4] [3] [3] [0, 1, 2] [0, 1, 2]
  dot_S1x128x8x256x256_S1x128x8x256x32_S1x128x8x256x32_4_3_3_4_012_012_wf : DotDims.WF S1x128x8x256x256 S1x128x8x256x32 S1x128x8x256x32 [4] [3] [3] [4] [0, 1, 2] [0, 1, 2]
  dot_S1x128x256x256_S256x256_S1x128x256x256_3_1_012_0_n_n_wf : DotDims.WF S1x128x256x256 S256x256 S1x128x256x256 [3] [1] [0, 1, 2] [0] [] []

variable [Facts₀]

def dot_S1x128x256x256_S768x256_S1x128x256x768_3_1_012_0_n_n : DotDims S1x128x256x256 S768x256 S1x128x256x768 where
  lhsContracting := [3]
  rhsContracting := [1]
  lhsNonContracting := [0, 1, 2]
  rhsNonContracting := [0]
  lhsBatch := []
  rhsBatch := []
  wf := dot_S1x128x256x256_S768x256_S1x128x256x768_3_1_012_0_n_n_wf
def dot_S1x128x8x256x32_S1x128x8x256x32_S1x128x8x256x256_4_4_3_3_012_012 : DotDims S1x128x8x256x32 S1x128x8x256x32 S1x128x8x256x256 where
  lhsContracting := [4]
  rhsContracting := [4]
  lhsNonContracting := [3]
  rhsNonContracting := [3]
  lhsBatch := [0, 1, 2]
  rhsBatch := [0, 1, 2]
  wf := dot_S1x128x8x256x32_S1x128x8x256x32_S1x128x8x256x256_4_4_3_3_012_012_wf
def dot_S1x128x8x256x256_S1x128x8x256x32_S1x128x8x256x32_4_3_3_4_012_012 : DotDims S1x128x8x256x256 S1x128x8x256x32 S1x128x8x256x32 where
  lhsContracting := [4]
  rhsContracting := [3]
  lhsNonContracting := [3]
  rhsNonContracting := [4]
  lhsBatch := [0, 1, 2]
  rhsBatch := [0, 1, 2]
  wf := dot_S1x128x8x256x256_S1x128x8x256x32_S1x128x8x256x32_4_3_3_4_012_012_wf
def dot_S1x128x256x256_S256x256_S1x128x256x256_3_1_012_0_n_n : DotDims S1x128x256x256 S256x256 S1x128x256x256 where
  lhsContracting := [3]
  rhsContracting := [1]
  lhsNonContracting := [0, 1, 2]
  rhsNonContracting := [0]
  lhsBatch := []
  rhsBatch := []
  wf := dot_S1x128x256x256_S256x256_S1x128x256x256_3_1_012_0_n_n_wf

class Facts : Prop extends Facts₀ where

variable [Facts]
-- ==== Proof.KBody.lean ====
/-
  The kernel's body as ONE structured function of its loaded values.

  Per grid point the kernel handles eight consecutive slices of the second batch axis. Over all 2048 = 8 x 256 rows at
  once it projects the rows onto the 768 query / key / value columns and onto the 256 gate columns; then, for each
  slice b (256 rows) and each head h (32 columns), it forms the 256 x 256 logits q_h k_h^T (q scaled by 32^(-1/2)),
  adds the slice's mask bias (mask - 1) * 1e9 along the key axis and the head's bias table, takes the row-wise
  softmax (row maximum, exponential, row sum, quotient), and multiplies by v_h; the eight heads' 256 x 32 results
  are laid side by side, the eight slices' 256 x 256 results one below the other; the whole is gated by the logistic
  of the gate projection, projected by the output weights and shifted by the output bias.

  The unrolled body repeats the per-head computation 64 times (8 slices x 8 heads) with literal offsets. Here it is ONE
  function of the slice number and the head number (`head`, `sliceRows`): head `h` reads columns `32 h …`, slice `b`
  reads rows `256 b …`, and `out_eq_body` says the value the body stores is this function of the loaded blocks.
-/
import proofs.«403390_j858993459582_3_alg».proof.Proof.Gen.KernelIdeal.Frame

set_option synthInstance.maxSize 4096
set_option maxRecDepth 65536

noncomputable section

namespace Cert.KernelIdeal.Attn

open Cert.KernelIdeal Cert.KernelIdeal.Gen Idealize.ShloMosaic Idealize.SL.Sem

variable {F : FTy → Type} [FloatOps F]

/-! ## Where the pieces sit -/

/-- Columns `32 h … 32 h + 31` of a 256 x 256 array: head `h`'s columns. -/
abbrev headOff (h : Fin 8) : Fin 2 → Nat := ![0, 32 * h.val]

theorem headOff_slices (h : Fin 8) : S256x256.Slices (headOff h) S256x32 :=
  ⟨rfl, fun a => match a with
    | ⟨0, _⟩ => by show 0 + 256 ≤ 256; omega
    | ⟨1, _⟩ => by show 32 * h.val + 32 ≤ 256; have := h.isLt; omega⟩

/-- Rows `256 b … 256 b + 255` of the 2048 x 768 projection: slice `b`'s rows. -/
abbrev rowOff (b : Fin 8) : Fin 2 → Nat := ![256 * b.val, 0]

theorem rowOff_slices (b : Fin 8) : S2048x768.Slices (rowOff b) S256x768 :=
  ⟨rfl, fun a => match a with
    | ⟨0, _⟩ => by show 256 * b.val + 256 ≤ 2048; have := b.isLt; omega
    | ⟨1, _⟩ => by show 0 + 768 ≤ 768; omega⟩

theorem maskRect_inb (b : Fin 8) : ∀ a, (![0, b.val, 0, 0] : Fin 4 → Nat) a + S1x1x1x256.size a ≤ S1x8x1x256.size a :=
  fun a => match a with
    | ⟨0, _⟩ => by show 0 + 1 ≤ 1; omega
    | ⟨1, _⟩ => by show b.val + 1 ≤ 8; have := b.isLt; omega
    | ⟨2, _⟩ => by show 0 + 1 ≤ 1; omega
    | ⟨3, _⟩ => by show 0 + 256 ≤ 256; omega

/-- The mask block's row of slice `b`. -/
abbrev maskRect (b : Fin 8) : Rect S1x8x1x256 := Rect.unit (s := S1x8x1x256) ![0, b.val, 0, 0] S1x1x1x256.size (maskRect_inb b)

theorem biasRect_inb (h : Fin 8) : ∀ a, (![0, h.val, 0, 0] : Fin 4 → Nat) a + S1x1x256x256.size a ≤ S1x8x256x256.size a :=
  fun a => match a with
    | ⟨0, _⟩ => by show 0 + 1 ≤ 1; omega
    | ⟨1, _⟩ => by show h.val + 1 ≤ 8; have := h.isLt; omega
    | ⟨2, _⟩ => by show 0 + 256 ≤ 256; omega
    | ⟨3, _⟩ => by show 0 + 256 ≤ 256; omega

/-- The bias table's 256 x 256 page of head `h`. -/
abbrev biasRect (h : Fin 8) : Rect S1x8x256x256 := Rect.unit (s := S1x8x256x256) ![0, h.val, 0, 0] S1x1x256x256.size (biasRect_inb h)

/-- Eight pieces of one shape laid along an axis: the shape fact of the eight-element list serves the table's list. -/
theorem cat8 {α : Type} (s t : Shape) (a : Fin t.rank) (f : Fin 8 → (s.Idx → α))
    (h : Shape.Concatenates [s, s, s, s, s, s, s, s] t a) :
    Shape.Concatenates ((List.ofFn fun n : Fin 8 => (⟨s, f n⟩ : (s : Shape) × (s.Idx → α))).map (·.1)) t a := h

/-! ## The operations, once -/

/-- The 2048 rows of the point's eight slices, narrowed for the matrix unit. -/
def rows (x : Vec F S1x8x256x256 .f32) : FVec F S2048x256 .bf16 :=
  truncf .bf16 (shapeCast S2048x256 (shapeCast S8x256x256 x shapeCasts_S1x8x256x256_S8x256x256) shapeCasts_S8x256x256_S2048x256) bitsLt_bf16_f32

/-- The query / key / value projection of all rows. -/
def qkvAll (x : Vec F S1x8x256x256 .f32) (w : Vec F S256x768 .bf16) : FVec F S2048x768 .f32 :=
  matmul dot_S2048x256_S256x768_S2048x768_1_0_0_1_n_n none (rows x) (shapeCast S256x768 w shapeCasts_S256x768_S256x768) (constant S2048x768 .f32 0x00000000#32)

/-- The gate of all rows: the logistic of the gate projection plus the gate bias. -/
def gateAll (x : Vec F S1x8x256x256 .f32) (wg : Vec F S256x256 .bf16) (gb : Vec F S256 .f32) : FVec F S2048x256 .f32 :=
  logistic (addf (matmul dot_S2048x256_S256x256_S2048x256_1_0_0_1_n_n none (rows x) (shapeCast S256x256 wg shapeCasts_S256x256_S256x256) (constant S2048x256 .f32 0x00000000#32))
    (broadcastTo S2048x256 (shapeCast S1x256 gb shapeCasts_S256_S1x256) broadcasts_S1x256_S2048x256))

/-- A slice's mask bias `(mask - 1) * 1e9`, one row. -/
def maskBias (ml : Vec F S1x1x1x256 .f32) : FVec F S1x256 .f32 :=
  mulf (subf (shapeCast S1x256 ml shapeCasts_S1x1x1x256_S1x256) (broadcast S1x256 (Scalar.ofBits .f32 0x3F800000#32)))
    (broadcast S1x256 (Scalar.ofBits .f32 0x4E6E6B28#32))

/-- Slice `b`'s rows of the projection, and its query, key and value column blocks. -/
def sliceQkv (qkv : FVec F S2048x768 .f32) (b : Fin 8) : FVec F S256x768 .f32 :=
  extractStridedSlice S256x768 (rowOff b) qkv (rowOff_slices b)
def qPart (qkv : FVec F S2048x768 .f32) (b : Fin 8) : FVec F S256x256 .f32 :=
  extractStridedSlice S256x256 ![0, 0] (sliceQkv qkv b) slices_S256x768_o0_0_S256x256
def kPart (qkv : FVec F S2048x768 .f32) (b : Fin 8) : FVec F S256x256 .f32 :=
  extractStridedSlice S256x256 ![0, 256] (sliceQkv qkv b) slices_S256x768_o0_256_S256x256
def vPart (qkv : FVec F S2048x768 .f32) (b : Fin 8) : FVec F S256x256 .f32 :=
  extractStridedSlice S256x256 ![0, 512] (sliceQkv qkv b) slices_S256x768_o0_512_S256x256

/-- One head's logits: scaled queries times keys, plus the mask bias along the keys, plus the head's bias page. -/
def logits (q k : FVec F S256x256 .f32) (mb : FVec F S1x256 .f32) (nl : Vec F S1x1x256x256 .f32) (h : Fin 8) : FVec F S256x256 .f32 :=
  addf (addf (matmul dot_S256x32_S32x256_S256x256_1_0_0_1_n_n none
      (truncf .bf16 (mulf (extractStridedSlice S256x32 (headOff h) q (headOff_slices h)) (broadcast S256x32 (Scalar.ofBits .f32 0x3E3504F3#32))) bitsLt_bf16_f32)
      (transpose S32x256 [1, 0] (truncf .bf16 (extractStridedSlice S256x32 (headOff h) k (headOff_slices h)) bitsLt_bf16_f32) transposes_S256x32_p1_0_S32x256)
      (constant S256x256 .f32 0x00000000#32))
    (broadcastTo S256x256 mb broadcasts_S1x256_S256x256))
    (shapeCast S256x256 nl shapeCasts_S1x1x256x256_S256x256)

/-- Row-wise: the exponential of each entry less its row's maximum. -/
def rowExp (l : FVec F S256x256 .f32) : FVec F S256x256 .f32 :=
  exp (subf l (broadcastTo S256x256 (shapeCast S256x1 (multiReduction .maximumf [1] S256 l 0xFF800000#32 reduces_S256x256_S256 (.inl rfl) rfl) shapeCasts_S256_S256x1) broadcasts_S256x1_S256x256))

/-- Row-wise: each entry over its row's sum. -/
def rowNorm (e : FVec F S256x256 .f32) : FVec F S256x256 .f32 :=
  divf e (broadcastTo S256x256 (shapeCast S256x1 (multiReduction .add [1] S256 e 0x00000000#32 reduces_S256x256_S256 (.inl rfl) rfl) shapeCasts_S256_S256x1) broadcasts_S256x1_S256x256)

/-- One head of one slice: softmax of the logits times the head's values. -/
def head (q k v : FVec F S256x256 .f32) (mb : FVec F S1x256 .f32) (nl : Vec F S1x1x256x256 .f32) (h : Fin 8) : FVec F S256x32 .f32 :=
  matmul dot_S256x256_S256x32_S256x32_1_0_0_1_n_n none
    (truncf .bf16 (rowNorm (rowExp (logits q k mb nl h))) bitsLt_bf16_f32)
    (truncf .bf16 (extractStridedSlice S256x32 (headOff h) v (headOff_slices h)) bitsLt_bf16_f32)
    (constant S256x32 .f32 0x00000000#32)

/-- One slice: its eight heads side by side. -/
def sliceRows (qkv : FVec F S2048x768 .f32) (ml : Vec F S1x1x1x256 .f32) (nl : Fin 8 → Vec F S1x1x256x256 .f32) (b : Fin 8) : FVec F S256x256 .f32 :=
  concatenate S256x256 1 (List.ofFn fun h : Fin 8 => (⟨S256x32, head (qPart qkv b) (kPart qkv b) (vPart qkv b) (maskBias ml) (nl h) h⟩ : (s : Shape) × (s.Idx → F .f32)))
    (cat8 S256x32 S256x256 1 _ concatenates_S256x32_S256x32_S256x32_S256x32_S256x32_S256x32_S256x32_S256x32_S256x256_d1)

/-- The eight slices one below the other. -/
def allRows (qkv : FVec F S2048x768 .f32) (ml : Fin 8 → Vec F S1x1x1x256 .f32) (nl : Fin 8 → Vec F S1x1x256x256 .f32) : FVec F S2048x256 .f32 :=
  concatenate S2048x256 0 (List.ofFn fun b : Fin 8 => (⟨S256x256, sliceRows qkv (ml b) nl b⟩ : (s : Shape) × (s.Idx → F .f32)))
    (cat8 S256x256 S2048x256 0 _ concatenates_S256x256_S256x256_S256x256_S256x256_S256x256_S256x256_S256x256_S256x256_S2048x256_d0)

/-- The point's output block, 2048 rows: gate times attention, projected, plus the output bias. -/
def outRows (x : Vec F S1x8x256x256 .f32) (ml : Fin 8 → Vec F S1x1x1x256 .f32) (nl : Fin 8 → Vec F S1x1x256x256 .f32)
    (w : Vec F S256x768 .bf16) (wg : Vec F S256x256 .bf16) (gb : Vec F S256 .f32) (wo : Vec F S256x256 .bf16) (bo : Vec F S256 .f32) : FVec F S2048x256 .f32 :=
  addf (matmul dot_S2048x256_S256x256_S2048x256_1_0_0_1_n_n none
      (truncf .bf16 (mulf (gateAll x wg gb) (allRows (qkvAll x w) ml nl)) bitsLt_bf16_f32)
      (shapeCast S256x256 wo shapeCasts_S256x256_S256x256) (constant S2048x256 .f32 0x00000000#32))
    (broadcastTo S2048x256 (shapeCast S1x256 bo shapeCasts_S256_S1x256) broadcasts_S1x256_S2048x256)

/-- The same as the stored block `[1, 8, 256, 256]`. -/
def body (x : Vec F S1x8x256x256 .f32) (ml : Fin 8 → Vec F S1x1x1x256 .f32) (nl : Fin 8 → Vec F S1x1x256x256 .f32)
    (w : Vec F S256x768 .bf16) (wg : Vec F S256x256 .bf16) (gb : Vec F S256 .f32) (wo : Vec F S256x256 .bf16) (bo : Vec F S256 .f32) : FVec F S1x8x256x256 .f32 :=
  shapeCast S1x8x256x256 (shapeCast S8x256x256 (outRows x ml nl w wg gb wo bo) shapeCasts_S2048x256_S8x256x256) shapeCasts_S8x256x256_S1x8x256x256

/-! ## The generated payload is this function's table -/

/-- What the body leaves in the output buffer: the one store's value is `body` of the loaded blocks, slice `b`'s mask
    row and head `h`'s bias page being the loads through `maskRect b` and `biasRect h`. -/
theorem out_eq_body (x0 : Vec F S1x8x256x256 .f32) (x1 : Vec F S1x8x1x256 .f32) (x2 : Vec F S1x8x256x256 .f32) (x3 : Vec F S256x768 .bf16)
    (x4 : Vec F S256x256 .bf16) (x5 : Vec F S256 .f32) (x6 : Vec F S256x256 .bf16) (x7 : Vec F S256 .f32) :
    out0_8 x0 x1 x2 x3 x4 x5 x6 x7
      = View.canon [⟨r0_0, body (View.ld x0 r0_0) (fun b => View.ld x1 (maskRect b)) (fun h => View.ld x2 (biasRect h))
          (View.ld x3 r0_1) (View.ld x4 r0_2) (View.ld x5 r0_3) (View.ld x6 r0_2) (View.ld x7 r0_3)⟩] := rfl

end Cert.KernelIdeal.Attn

end
-- ==== Proof.Spec.lean ====
/-
  The specification: gated multi-head attention with a pair bias, for ONE slice of the second batch axis, entry by
  entry over the extended reals.

  A slice has 256 positions with 256 features each (`X n d`), a mask over its positions (`Mk k`), and shares with all
  other slices the eight 256 x 256 bias pages (`NB h n k`), the 768 x 256 query / key / value weights (`Wqkv e d`,
  rows 0..255 the queries, 256..511 the keys, 512..767 the values, each as eight heads of 32 columns), the gate
  weights and bias, and the output weights and bias. For head `h`, query position `n` and key position `k`

      logit h n k = sum_c (q[n, 32h+c] * s) * k[k, 32h+c] + (Mk k - 1) * big + NB h n k,

  the attention weight is the row-wise softmax `exp (logit - rowmax) / sum_k exp (logit - rowmax)`, the head's result
  `sum_k weight h n k * v[k, 32h+c]`, and the output `sum_e (gate n e * result n e) * Wo o e + Bo o` with
  `gate = logistic (X Wg^T + Gb)`. The float literals stay the bit patterns both programs print
  (`s` = f32 0.17677669, `big` = f32 1e9, `1`, and the row maximum's starting value f32 -inf).

  First the part that knows nothing of projections — a head's logits from query / key tables, the row-wise softmax, a
  head's attended values —, then the slice, then the whole result array `G` over the argument arrays.
-/
import Idealize.ShloMosaic.PureOps.Ideal
import Idealize.ShloMosaic.Lib.ValueIdx

noncomputable section

namespace Cert.AttnSpec

open Idealize.ShloMosaic Idealize.ShloMosaic.ValueIdx

/-! ## One head, over tables of 256 positions x 256 columns -/

/-- Column `32 h + c`: head `h`'s `c`-th feature among a block's 256 columns. -/
def hcol (h : Fin 8) (c : Fin 32) : Fin 256 := ⟨32 * h.val + c.val, by have := h.isLt; have := c.isLt; omega⟩

/-- Which head a column belongs to, and where in the head. -/
def headOf (e : Fin 256) : Fin 8 := ⟨e.val / 32, by have := e.isLt; omega⟩
def inHead (e : Fin 256) : Fin 32 := ⟨e.val % 32, Nat.mod_lt _ (by decide)⟩

theorem hcol_headOf_inHead (e : Fin 256) : hcol (headOf e) (inHead e) = e :=
  Fin.ext (by show 32 * (e.val / 32) + e.val % 32 = e.val; omega)

/-- A row's maximum, folded from f32 `-inf`. -/
def rowMax (f : Fin 256 → EReal) : EReal :=
  (Finset.univ : Finset (Fin 256)).fold max (Ideal.ofBits .f32 0xFF800000#32) f

/-- Head `h`'s logits from query and key tables `Q`, `K` (position, column), a bias `MB` along the keys and a bias
    page `P`: scaled queries against keys over the head's 32 columns, then the two biases, in this order. -/
def hlogit (Q K : Fin 256 → Fin 256 → EReal) (MB : Fin 256 → EReal) (P : Fin 256 → Fin 256 → EReal)
    (h : Fin 8) (n k : Fin 256) : EReal :=
  ((∑ c : Fin 32, (Q n (hcol h c) * Ideal.ofBits .f32 0x3E3504F3#32) * K k (hcol h c)) + MB k) + P n k

/-- Row-wise softmax of a 256 x 256 table: numerator … -/
def softExp (L : Fin 256 → Fin 256 → EReal) (n k : Fin 256) : EReal := Ideal.exp (L n k - rowMax (L n))
/-- … and weight. -/
def softW (L : Fin 256 → Fin 256 → EReal) (n k : Fin 256) : EReal :=
  Ideal.div (softExp L n k) (∑ k' : Fin 256, softExp L n k')

/-- The weights applied to head `h`'s columns of a value table `V`. -/
def hattend (L : Fin 256 → Fin 256 → EReal) (V : Fin 256 → Fin 256 → EReal) (h : Fin 8) (n : Fin 256) (c : Fin 32) : EReal :=
  ∑ k : Fin 256, softW L n k * V k (hcol h c)

/-! ## One slice -/

/-- The query, key and value columns among the 768 projected columns. -/
def qc (e : Fin 256) : Fin 768 := ⟨e.val, by have := e.isLt; omega⟩
def kc (e : Fin 256) : Fin 768 := ⟨256 + e.val, by have := e.isLt; omega⟩
def vc (e : Fin 256) : Fin 768 := ⟨512 + e.val, by have := e.isLt; omega⟩

section
variable (X : Fin 256 → Fin 256 → EReal) (Mk : Fin 256 → EReal) (NB : Fin 8 → Fin 256 → Fin 256 → EReal)
  (Wqkv : Fin 768 → Fin 256 → EReal) (Wg : Fin 256 → Fin 256 → EReal) (Gb : Fin 256 → EReal)
  (Wo : Fin 256 → Fin 256 → EReal) (Bo : Fin 256 → EReal)

/-- Position `n` projected on row `e` of the query / key / value weights. -/
def proj (e : Fin 768) (n : Fin 256) : EReal := ∑ d : Fin 256, X n d * Wqkv e d

/-- The mask as a bias along the keys: `(mask - 1) * 1e9`. -/
def mbias (k : Fin 256) : EReal := (Mk k - Ideal.ofBits .f32 0x3F800000#32) * Ideal.ofBits .f32 0x4E6E6B28#32

/-- Head `h`'s logits of the slice. -/
def logit (h : Fin 8) : Fin 256 → Fin 256 → EReal :=
  hlogit (fun n e => proj X Wqkv (qc e) n) (fun n e => proj X Wqkv (kc e) n) (mbias Mk) (NB h) h

/-- Head `h`'s attended values, feature `c`, at position `n`. -/
def attended (n : Fin 256) (h : Fin 8) (c : Fin 32) : EReal :=
  hattend (logit X Mk NB Wqkv h) (fun n e => proj X Wqkv (vc e) n) h n c

def gate (n e : Fin 256) : EReal := Ideal.logistic ((∑ d : Fin 256, X n d * Wg e d) + Gb e)

/-- The slice's output at position `n`, output feature `o`. -/
def sliceOut (n o : Fin 256) : EReal :=
  (∑ e : Fin 256, (gate X Wg Gb n e * attended X Mk NB Wqkv n (headOf e) (inHead e)) * Wo o e) + Bo o

end

/-! ## The result array over the argument arrays -/

abbrev SX : Shape := ⟨4, ![1, 128, 256, 256]⟩
abbrev SM : Shape := ⟨3, ![1, 128, 256]⟩
abbrev SNB : Shape := ⟨4, ![1, 8, 256, 256]⟩
abbrev SWqkv : Shape := ⟨2, ![768, 256]⟩
abbrev SW : Shape := ⟨2, ![256, 256]⟩
abbrev SV : Shape := ⟨1, ![256]⟩

/-- The output of slice `B` as a function of the whole argument arrays. -/
def atSlice (x0 : SX.Idx → EReal) (x1 : SM.Idx → EReal) (x2 : SNB.Idx → EReal) (x3 : SWqkv.Idx → EReal)
    (x4 : SW.Idx → EReal) (x5 : SV.Idx → EReal) (x6 : SW.Idx → EReal) (x7 : SV.Idx → EReal)
    (B : Fin 128) (n o : Fin 256) : EReal :=
  sliceOut (fun n d => x0 (ix4 0 B n d)) (fun k => x1 (ix3 0 B k)) (fun h n k => x2 (ix4 0 h n k))
    (fun e d => x3 (ix2 e d)) (fun e d => x4 (ix2 e d)) (fun e => x5 (ix1 e)) (fun o e => x6 (ix2 o e)) (fun o => x7 (ix1 o)) n o

/-- The result array. -/
def G (x0 : SX.Idx → EReal) (x1 : SM.Idx → EReal) (x2 : SNB.Idx → EReal) (x3 : SWqkv.Idx → EReal)
    (x4 : SW.Idx → EReal) (x5 : SV.Idx → EReal) (x6 : SW.Idx → EReal) (x7 : SV.Idx → EReal) : SX.Idx → EReal :=
  fun i => atSlice x0 x1 x2 x3 x4 x5 x6 x7 (i 1) (i 2) (i 3)

theorem G_apply (x0 : SX.Idx → EReal) (x1 : SM.Idx → EReal) (x2 : SNB.Idx → EReal) (x3 : SWqkv.Idx → EReal)
    (x4 : SW.Idx → EReal) (x5 : SV.Idx → EReal) (x6 : SW.Idx → EReal) (x7 : SV.Idx → EReal)
    (a : Fin 1) (B : Fin 128) (n o : Fin 256) :
    G x0 x1 x2 x3 x4 x5 x6 x7 (ix4 a B n o) = atSlice x0 x1 x2 x3 x4 x5 x6 x7 B n o := rfl

end Cert.AttnSpec

end
-- ==== Proof.HeadValue.lean ====
/-
  One head of one slice, read at an entry.

  `head q k v mb nl h` at row `n`, column `c` is the specification's `hattend`: the row-wise softmax weights of head
  `h`'s logits (scaled queries against keys over the head's 32 columns, plus the mask bias along the keys, plus the
  head's bias page) applied to head `h`'s columns of the values. The matrix products are sums over the contracted
  axis, the row maximum and the row sum are the folds over the row, the narrowing to bf16 is the identity on
  extended reals, and the slices, the transpose and the shape casts only move indices.
-/
import proofs.«403390_j858993459582_3_alg».proof.Proof.KBody
import proofs.«403390_j858993459582_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 65536

noncomputable section

namespace Cert.KernelIdeal.Attn

open Cert.KernelIdeal Cert.KernelIdeal.Gen Idealize.ShloMosaic Idealize.ShloMosaic.ValueIdx Cert.AttnSpec

/-! ## The row reductions -/

/-- Over a row index the reduction's inserted index is the entry (row, column). -/
private theorem lift_row (hr : S256x256.Reduces [1] S256) (n : Fin 256) (kk : Fin (S256x256.size 1)) :
    hr.lift (ix1 n) kk = ix2 n kk := by
  funext a
  match a with
  | ⟨0, _⟩ => exact Fin.ext rfl
  | ⟨1, _⟩ => exact Fin.ext rfl

/-- The maximum reduction along the rows, at row `n`: the fold of `max` from `-inf` over the row. -/
private theorem rowMax_apply (l : FVec Ideal S256x256 .f32) (n : Fin 256) :
    multiReduction .maximumf [1] S256 l 0xFF800000#32 reduces_S256x256_S256 (.inl rfl) rfl (ix1 n)
      = rowMax (fun kk => l (ix2 n kk)) := by
  refine (Ideal.multiReduction_maximumf_single l _ reduces_S256x256_S256 (.inl rfl) rfl (ix1 n)).trans ?_
  unfold rowMax
  have e : l ∘ reduces_S256x256_S256.lift (ix1 n) = fun kk : Fin 256 => l (ix2 n kk) :=
    funext fun kk => congrArg l (lift_row _ n kk)
  rw [e]
  rfl

/-- The sum reduction along the rows, at row `n`: the sum over the row. -/
private theorem rowSum_apply (l : FVec Ideal S256x256 .f32) (n : Fin 256) :
    multiReduction .add [1] S256 l 0x00000000#32 reduces_S256x256_S256 (.inl rfl) rfl (ix1 n)
      = ∑ kk : Fin 256, l (ix2 n kk) := by
  refine (Ideal.multiReduction_add_single l _ reduces_S256x256_S256 (.inl rfl) rfl (ix1 n)).trans ?_
  exact Finset.sum_congr rfl fun kk _ => congrArg l (lift_row _ n kk)

/-- A per-row value kept as a column and spread over the row's entries reads the row's value. -/
private theorem keepCol_apply {α : Type} (r : S256.Idx → α) (n kk : Fin 256) :
    broadcastTo S256x256 (shapeCast S256x1 r shapeCasts_S256_S256x1) broadcasts_S256x1_S256x256 (ix2 n kk) = r (ix1 n) := by
  refine (broadcastTo_apply _ broadcasts_S256x1_S256x256 (ix2 n kk) (ix2 n (0 : Fin 1)) fun a => ?_).trans ?_
  · match a with
    | ⟨0, _⟩ => rfl
    | ⟨1, _⟩ => rfl
  · exact shapeCast_apply r shapeCasts_S256_S256x1 _ _ (by
      rw [Shape.rowMajor_val_one, Shape.rowMajor_val_two]
      show n.val = n.val * 1 + 0
      omega)

/-! ## The two matrix products

The operand indices of a product at an output index and a contraction position, axis by axis; then the product read
at an entry as the sum over the contracted axis. -/

private theorem lhsA_0 (i : S256x256.Idx) (q : dot_S256x32_S32x256_S256x256_1_0_0_1_n_n.contr.Idx) :
    (dot_S256x32_S32x256_S256x256_1_0_0_1_n_n.lhsIdx i q 0).val = (i 0).val := by
  unfold DotDims.lhsIdx
  rw [dif_neg (show ¬(0 : Fin S256x32.rank) ∈ dot_S256x32_S32x256_S256x256_1_0_0_1_n_n.lhsBatch by decide),
    dif_pos (show (0 : Fin S256x32.rank) ∈ dot_S256x32_S32x256_S256x256_1_0_0_1_n_n.lhsNonContracting by decide)]
  rfl
private theorem lhsA_1 (i : S256x256.Idx) (q : dot_S256x32_S32x256_S256x256_1_0_0_1_n_n.contr.Idx) :
    (dot_S256x32_S32x256_S256x256_1_0_0_1_n_n.lhsIdx i q 1).val = (q ⟨0, by decide⟩).val :=
  dot_S256x32_S32x256_S256x256_1_0_0_1_n_n.lhsIdx_val_of_single rfl i q
private theorem rhsA_0 (i : S256x256.Idx) (q : dot_S256x32_S32x256_S256x256_1_0_0_1_n_n.contr.Idx) :
    (dot_S256x32_S32x256_S256x256_1_0_0_1_n_n.rhsIdx i q 0).val = (q ⟨0, by decide⟩).val :=
  dot_S256x32_S32x256_S256x256_1_0_0_1_n_n.rhsIdx_val_of_single rfl i q
private theorem rhsA_1 (i : S256x256.Idx) (q : dot_S256x32_S32x256_S256x256_1_0_0_1_n_n.contr.Idx) :
    (dot_S256x32_S32x256_S256x256_1_0_0_1_n_n.rhsIdx i q 1).val = (i 1).val := by
  unfold DotDims.rhsIdx
  rw [dif_neg (show ¬(1 : Fin S32x256.rank) ∈ dot_S256x32_S32x256_S256x256_1_0_0_1_n_n.rhsBatch by decide),
    dif_pos (show (1 : Fin S32x256.rank) ∈ dot_S256x32_S32x256_S256x256_1_0_0_1_n_n.rhsNonContracting by decide)]
  rfl

/-- The first product at (row, key): the sum over the head's 32 columns. -/
private theorem dotA_apply {φ₁ φ₂ : FTy} (lhs : FVec Ideal S256x32 φ₁) (rhs : FVec Ideal S32x256 φ₂) (n kk : Fin 256) :
    matmul dot_S256x32_S32x256_S256x256_1_0_0_1_n_n none lhs rhs (constant S256x256 .f32 0x00000000#32) (ix2 n kk)
      = ∑ c : Fin 32, lhs (ix2 n c) * rhs (ix2 c kk) := by
  simp only [matmul]
  rw [Ideal.matmul_constant_zero_apply, ← Equiv.sum_comp (contrEquiv1 dot_S256x32_S32x256_S256x256_1_0_0_1_n_n 32 rfl rfl).symm]
  refine Finset.sum_congr rfl fun c _ => ?_
  have hc := contrEquiv1_symm_val dot_S256x32_S32x256_S256x256_1_0_0_1_n_n 32 rfl rfl c
  have el : dot_S256x32_S32x256_S256x256_1_0_0_1_n_n.lhsIdx (ix2 n kk) ((contrEquiv1 dot_S256x32_S32x256_S256x256_1_0_0_1_n_n 32 rfl rfl).symm c) = ix2 n c :=
    funext fun a => Fin.ext (by
      match a with
      | ⟨0, _⟩ => exact lhsA_0 _ _
      | ⟨1, _⟩ => exact (lhsA_1 _ _).trans hc)
  have er : dot_S256x32_S32x256_S256x256_1_0_0_1_n_n.rhsIdx (ix2 n kk) ((contrEquiv1 dot_S256x32_S32x256_S256x256_1_0_0_1_n_n 32 rfl rfl).symm c) = ix2 c kk :=
    funext fun a => Fin.ext (by
      match a with
      | ⟨0, _⟩ => exact (rhsA_0 _ _).trans hc
      | ⟨1, _⟩ => exact rhsA_1 _ _)
  rw [el, er]

private theorem lhsB_0 (i : S256x32.Idx) (q : dot_S256x256_S256x32_S256x32_1_0_0_1_n_n.contr.Idx) :
    (dot_S256x256_S256x32_S256x32_1_0_0_1_n_n.lhsIdx i q 0).val = (i 0).val := by
  unfold DotDims.lhsIdx
  rw [dif_neg (show ¬(0 : Fin S256x256.rank) ∈ dot_S256x256_S256x32_S256x32_1_0_0_1_n_n.lhsBatch by decide),
    dif_pos (show (0 : Fin S256x256.rank) ∈ dot_S256x256_S256x32_S256x32_1_0_0_1_n_n.lhsNonContracting by decide)]
  rfl
private theorem lhsB_1 (i : S256x32.Idx) (q : dot_S256x256_S256x32_S256x32_1_0_0_1_n_n.contr.Idx) :
    (dot_S256x256_S256x32_S256x32_1_0_0_1_n_n.lhsIdx i q 1).val = (q ⟨0, by decide⟩).val :=
  dot_S256x256_S256x32_S256x32_1_0_0_1_n_n.lhsIdx_val_of_single rfl i q
private theorem rhsB_0 (i : S256x32.Idx) (q : dot_S256x256_S256x32_S256x32_1_0_0_1_n_n.contr.Idx) :
    (dot_S256x256_S256x32_S256x32_1_0_0_1_n_n.rhsIdx i q 0).val = (q ⟨0, by decide⟩).val :=
  dot_S256x256_S256x32_S256x32_1_0_0_1_n_n.rhsIdx_val_of_single rfl i q
private theorem rhsB_1 (i : S256x32.Idx) (q : dot_S256x256_S256x32_S256x32_1_0_0_1_n_n.contr.Idx) :
    (dot_S256x256_S256x32_S256x32_1_0_0_1_n_n.rhsIdx i q 1).val = (i 1).val := by
  unfold DotDims.rhsIdx
  rw [dif_neg (show ¬(1 : Fin S256x32.rank) ∈ dot_S256x256_S256x32_S256x32_1_0_0_1_n_n.rhsBatch by decide),
    dif_pos (show (1 : Fin S256x32.rank) ∈ dot_S256x256_S256x32_S256x32_1_0_0_1_n_n.rhsNonContracting by decide)]
  rfl

/-- The second product at (row, column): the sum over the 256 keys. -/
private theorem dotB_apply {φ₁ φ₂ : FTy} (lhs : FVec Ideal S256x256 φ₁) (rhs : FVec Ideal S256x32 φ₂) (n : Fin 256) (c : Fin 32) :
    matmul dot_S256x256_S256x32_S256x32_1_0_0_1_n_n none lhs rhs (constant S256x32 .f32 0x00000000#32) (ix2 n c)
      = ∑ kk : Fin 256, lhs (ix2 n kk) * rhs (ix2 kk c) := by
  simp only [matmul]
  rw [Ideal.matmul_constant_zero_apply, ← Equiv.sum_comp (contrEquiv1 dot_S256x256_S256x32_S256x32_1_0_0_1_n_n 256 rfl rfl).symm]
  refine Finset.sum_congr rfl fun kk _ => ?_
  have hk := contrEquiv1_symm_val dot_S256x256_S256x32_S256x32_1_0_0_1_n_n 256 rfl rfl kk
  have el : dot_S256x256_S256x32_S256x32_1_0_0_1_n_n.lhsIdx (ix2 n c) ((contrEquiv1 dot_S256x256_S256x32_S256x32_1_0_0_1_n_n 256 rfl rfl).symm kk) = ix2 n kk :=
    funext fun a => Fin.ext (by
      match a with
      | ⟨0, _⟩ => exact lhsB_0 _ _
      | ⟨1, _⟩ => exact (lhsB_1 _ _).trans hk)
  have er : dot_S256x256_S256x32_S256x32_1_0_0_1_n_n.rhsIdx (ix2 n c) ((contrEquiv1 dot_S256x256_S256x32_S256x32_1_0_0_1_n_n 256 rfl rfl).symm kk) = ix2 kk c :=
    funext fun a => Fin.ext (by
      match a with
      | ⟨0, _⟩ => exact (rhsB_0 _ _).trans hk
      | ⟨1, _⟩ => exact rhsB_1 _ _)
  rw [el, er]

/-! ## The pieces of one head -/

/-- Head `h`'s 32 columns of a 256 x 256 table. -/
private theorem headSlice_apply {φ : FTy} (x : FVec Ideal S256x256 φ) (h : Fin 8) (n : Fin 256) (c : Fin 32) :
    extractStridedSlice S256x32 (headOff h) x (headOff_slices h) (ix2 n c) = x (ix2 n (hcol h c)) :=
  slice2_axis1_apply (32 * h.val) x (headOff_slices h) n c (hcol h c) rfl

/-- The logits at (query, key). -/
private theorem logits_apply (q k : FVec Ideal S256x256 .f32) (mb : FVec Ideal S1x256 .f32) (nl : Vec Ideal S1x1x256x256 .f32)
    (h : Fin 8) (n kk : Fin 256) :
    logits q k mb nl h (ix2 n kk)
      = hlogit (fun n e => q (ix2 n e)) (fun n e => k (ix2 n e)) (fun kk => mb (ix2 0 kk)) (fun n kk => nl (ix4 0 0 n kk)) h n kk := by
  unfold logits hlogit
  refine congrArg₂ (· + ·) (congrArg₂ (· + ·) ?_ ?_) ?_
  · refine (dotA_apply _ _ n kk).trans (Finset.sum_congr rfl fun c _ => ?_)
    refine congrArg₂ (· * ·) (congrArg (· * _) (headSlice_apply q h n c)) ?_
    exact (transpose_ix2_apply _ transposes_S256x32_p1_0_S32x256 c kk).trans (headSlice_apply k h kk c)
  · exact broadcastTo_1b_ab_apply mb broadcasts_S1x256_S256x256 n kk
  · exact shapeCast_apply nl shapeCasts_S1x1x256x256_S256x256 _ _ (by
      rw [Shape.rowMajor_val_four, Shape.rowMajor_val_two]
      show ((0 * 1 + 0) * 256 + n.val) * 256 + kk.val = n.val * 256 + kk.val
      omega)

/-- The softmax numerator at (query, key). -/
private theorem rowExp_apply (l : FVec Ideal S256x256 .f32) (n kk : Fin 256) :
    rowExp l (ix2 n kk) = softExp (fun n kk => l (ix2 n kk)) n kk := by
  unfold rowExp softExp
  refine congrArg Ideal.exp (congrArg (l (ix2 n kk) - ·) ?_)
  exact (keepCol_apply _ n kk).trans (rowMax_apply l n)

/-- The softmax weight at (query, key). -/
private theorem rowNorm_rowExp_apply (l : FVec Ideal S256x256 .f32) (n kk : Fin 256) :
    rowNorm (rowExp l) (ix2 n kk) = softW (fun n kk => l (ix2 n kk)) n kk := by
  unfold rowNorm softW
  refine congrArg₂ Ideal.div (rowExp_apply l n kk) ?_
  refine (keepCol_apply _ n kk).trans ((rowSum_apply (rowExp l) n).trans ?_)
  exact Finset.sum_congr rfl fun k' _ => rowExp_apply l n k'

/-! ## One head -/

theorem head_apply (q k v : FVec Ideal S256x256 .f32) (mb : FVec Ideal S1x256 .f32) (nl : Vec Ideal S1x1x256x256 .f32)
    (h : Fin 8) (n : Fin 256) (c : Fin 32) :
    head q k v mb nl h (ix2 n c)
      = hattend (hlogit (fun n e => q (ix2 n e)) (fun n e => k (ix2 n e)) (fun kk => mb (ix2 0 kk)) (fun n kk => nl (ix4 0 0 n kk)) h)
          (fun n e => v (ix2 n e)) h n c := by
  have eL : (fun n kk => logits q k mb nl h (ix2 n kk))
      = hlogit (fun n e => q (ix2 n e)) (fun n e => k (ix2 n e)) (fun kk => mb (ix2 0 kk)) (fun n kk => nl (ix4 0 0 n kk)) h :=
    funext fun n => funext fun kk => logits_apply q k mb nl h n kk
  unfold head hattend
  refine (dotB_apply _ _ n c).trans (Finset.sum_congr rfl fun kk _ => ?_)
  refine congrArg₂ (· * ·) ?_ (headSlice_apply v h kk c)
  rw [← eL]
  exact rowNorm_rowExp_apply (logits q k mb nl h) n kk

end Cert.KernelIdeal.Attn

end
-- ==== Proof.KValue.lean ====
/-
  The kernel's stored block, read at an entry: slice `b` of the point, position `n`, output feature `o`.

  It is the specification's `sliceOut` of the slice's rows of the input block, the slice's mask row, the bias
  pages, and the weights as the kernel holds them (transposed: `w (d, e)` is the weight of feature `d` for column
  `e`). Row `256 b + n` of the 2048-row arrays is position `n` of slice `b`; column `e` of the attended values is
  feature `e mod 32` of head `e / 32`.
-/
import proofs.«403390_j858993459582_3_alg».proof.Proof.HeadValue

set_option maxRecDepth 65536

noncomputable section

namespace Cert.KernelIdeal.Attn

open Cert.KernelIdeal Cert.KernelIdeal.Gen Idealize.ShloMosaic Idealize.ShloMosaic.ValueIdx Cert.AttnSpec

namespace KValue

/-! ## Rows of the 2048-row arrays -/

/-- Row `256 b + n` of the flattened block is position `n` of slice `b`; the narrowing is the identity. -/
private theorem rows_apply (x : Vec Ideal S1x8x256x256 .f32) (b : Fin 8) (n : Fin 256) (r : Fin 2048)
    (hr : r.val = 256 * b.val + n.val) (d : Fin 256) :
    rows x (ix2 r d) = x (ix4 0 b n d) := by
  unfold rows
  show shapeCast S2048x256 (shapeCast S8x256x256 x shapeCasts_S1x8x256x256_S8x256x256) shapeCasts_S8x256x256_S2048x256 (ix2 r d) = _
  refine (shapeCast_apply _ shapeCasts_S8x256x256_S2048x256 (ix2 r d) (ix3 b n d) ?_).trans ?_
  · rw [Shape.rowMajor_val_three, Shape.rowMajor_val_two]
    show (b.val * 256 + n.val) * 256 + d.val = r.val * 256 + d.val
    rw [hr]; omega
  · exact shapeCast_1abc_abc_apply x shapeCasts_S1x8x256x256_S8x256x256 b n d

/-! ## The two products' operand indices, axis by axis -/

private theorem lhs768_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide),
    dif_pos (show (0 : Fin S2048x256.rank) ∈ dot_S2048x256_S256x768_S2048x768_1_0_0_1_n_n.lhsNonContracting by decide)]
  rfl
private theorem lhs768_1 (i : S2048x768.Idx) (q : dot_S2048x256_S256x768_S2048x768_1_0_0_1_n_n.contr.Idx) :
    (dot_S2048x256_S256x768_S2048x768_1_0_0_1_n_n.lhsIdx i q 1).val = (q ⟨0, by decide⟩).val :=
  dot_S2048x256_S256x768_S2048x768_1_0_0_1_n_n.lhsIdx_val_of_single rfl i q
private theorem rhs768_0 (i : S2048x768.Idx) (q : dot_S2048x256_S256x768_S2048x768_1_0_0_1_n_n.contr.Idx) :
    (dot_S2048x256_S256x768_S2048x768_1_0_0_1_n_n.rhsIdx i q 0).val = (q ⟨0, by decide⟩).val :=
  dot_S2048x256_S256x768_S2048x768_1_0_0_1_n_n.rhsIdx_val_of_single rfl i q
private theorem rhs768_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide),
    dif_pos (show (1 : Fin S256x768.rank) ∈ dot_S2048x256_S256x768_S2048x768_1_0_0_1_n_n.rhsNonContracting by decide)]
  rfl

private theorem lhs256_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
private theorem lhs256_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
private theorem rhs256_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
private theorem rhs256_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- A 2048 x 256 by 256 x 768 product into zero, read at an entry: the sum over the 256 contracted positions. -/
private theorem matmul768_apply (A : FVec Ideal S2048x256 .bf16) (B : FVec Ideal S256x768 .bf16) (r : Fin 2048) (e : Fin 768) :
    matmul dot_S2048x256_S256x768_S2048x768_1_0_0_1_n_n none A B (constant S2048x768 .f32 0x00000000#32) (ix2 r e)
      = ∑ d : Fin 256, A (ix2 r d) * B (ix2 d e) := by
  simp only [matmul]
  rw [Ideal.matmul_constant_zero_apply, ← Equiv.sum_comp (contrEquiv1 dot_S2048x256_S256x768_S2048x768_1_0_0_1_n_n 256 rfl rfl).symm]
  refine Finset.sum_congr rfl fun k _ => ?_
  have hk := contrEquiv1_symm_val dot_S2048x256_S256x768_S2048x768_1_0_0_1_n_n 256 rfl rfl k
  have el : dot_S2048x256_S256x768_S2048x768_1_0_0_1_n_n.lhsIdx (ix2 r e) ((contrEquiv1 dot_S2048x256_S256x768_S2048x768_1_0_0_1_n_n 256 rfl rfl).symm k) = ix2 r k :=
    funext fun a => Fin.ext (by
      match a with
      | ⟨0, _⟩ => exact lhs768_0 _ _
      | ⟨1, _⟩ => exact (lhs768_1 _ _).trans hk)
  have er : dot_S2048x256_S256x768_S2048x768_1_0_0_1_n_n.rhsIdx (ix2 r e) ((contrEquiv1 dot_S2048x256_S256x768_S2048x768_1_0_0_1_n_n 256 rfl rfl).symm k) = ix2 k e :=
    funext fun a => Fin.ext (by
      match a with
      | ⟨0, _⟩ => exact (rhs768_0 _ _).trans hk
      | ⟨1, _⟩ => exact rhs768_1 _ _)
  rw [el, er]

/-- The same for a 256 x 256 right factor. -/
private theorem matmul256_apply (A : FVec Ideal S2048x256 .bf16) (B : FVec Ideal S256x256 .bf16) (r : Fin 2048) (e : Fin 256) :
    matmul dot_S2048x256_S256x256_S2048x256_1_0_0_1_n_n none A B (constant S2048x256 .f32 0x00000000#32) (ix2 r e)
      = ∑ d : Fin 256, A (ix2 r d) * B (ix2 d e) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r e) ((contrEquiv1 dot_S2048x256_S256x256_S2048x256_1_0_0_1_n_n 256 rfl rfl).symm k) = ix2 r k :=
    funext fun a => Fin.ext (by
      match a with
      | ⟨0, _⟩ => exact lhs256_0 _ _
      | ⟨1, _⟩ => exact (lhs256_1 _ _).trans hk)
  have er : dot_S2048x256_S256x256_S2048x256_1_0_0_1_n_n.rhsIdx (ix2 r e) ((contrEquiv1 dot_S2048x256_S256x256_S2048x256_1_0_0_1_n_n 256 rfl rfl).symm k) = ix2 k e :=
    funext fun a => Fin.ext (by
      match a with
      | ⟨0, _⟩ => exact (rhs256_0 _ _).trans hk
      | ⟨1, _⟩ => exact rhs256_1 _ _)
  rw [el, er]

/-! ## The projections -/

/-- The query / key / value projection at row `256 b + n`, column `e`: position `n` of slice `b` against column `e` of the weights. -/
private theorem qkvAll_apply (x : Vec Ideal S1x8x256x256 .f32) (w : Vec Ideal S256x768 .bf16) (b : Fin 8) (n : Fin 256)
    (r : Fin 2048) (hr : r.val = 256 * b.val + n.val) (e : Fin 768) :
    qkvAll x w (ix2 r e) = ∑ d : Fin 256, x (ix4 0 b n d) * w (ix2 d e) := by
  unfold qkvAll
  rw [matmul768_apply, shapeCast_self]
  exact Finset.sum_congr rfl fun d _ => by rw [rows_apply x b n r hr d]

/-- Row `256 b + n` of a 2048-row array. -/
private def rowOf (b : Fin 8) (n : Fin 256) : Fin 2048 := ⟨256 * b.val + n.val, by have := b.isLt; have := n.isLt; omega⟩

private theorem sliceQkv_apply (qkv : FVec Ideal S2048x768 .f32) (b : Fin 8) (n : Fin 256) (e : Fin 768) :
    sliceQkv qkv b (ix2 n e) = qkv (ix2 (rowOf b n) e) := by
  unfold sliceQkv
  exact slice2_axis0_apply (256 * b.val) qkv (rowOff_slices b) n e (rowOf b n) rfl

private theorem qPart_apply (qkv : FVec Ideal S2048x768 .f32) (b : Fin 8) (n e : Fin 256) :
    qPart qkv b (ix2 n e) = qkv (ix2 (rowOf b n) (qc e)) := by
  unfold qPart
  refine (slice2_axis1_apply 0 (sliceQkv qkv b) slices_S256x768_o0_0_S256x256 n e (qc e) ?_).trans (sliceQkv_apply qkv b n (qc e))
  show e.val = 0 + e.val; omega

private theorem kPart_apply (qkv : FVec Ideal S2048x768 .f32) (b : Fin 8) (n e : Fin 256) :
    kPart qkv b (ix2 n e) = qkv (ix2 (rowOf b n) (kc e)) := by
  unfold kPart
  exact (slice2_axis1_apply 256 (sliceQkv qkv b) slices_S256x768_o0_256_S256x256 n e (kc e) rfl).trans (sliceQkv_apply qkv b n (kc e))

private theorem vPart_apply (qkv : FVec Ideal S2048x768 .f32) (b : Fin 8) (n e : Fin 256) :
    vPart qkv b (ix2 n e) = qkv (ix2 (rowOf b n) (vc e)) := by
  unfold vPart
  exact (slice2_axis1_apply 512 (sliceQkv qkv b) slices_S256x768_o0_512_S256x256 n e (vc e) rfl).trans (sliceQkv_apply qkv b n (vc e))

/-! ## The mask bias -/

private theorem maskBias_apply (ml : Vec Ideal S1x1x1x256 .f32) (k : Fin 256) :
    maskBias ml (ix2 0 k) = mbias (fun k => ml (ix4 0 0 0 k)) k := by
  unfold maskBias mbias
  show (shapeCast S1x256 ml shapeCasts_S1x1x1x256_S1x256 (ix2 0 k) - Ideal.ofBits .f32 0x3F800000#32) * Ideal.ofBits .f32 0x4E6E6B28#32 = _
  rw [shapeCast_apply ml shapeCasts_S1x1x1x256_S1x256 (ix2 0 k) (ix4 0 0 0 k) (by
    rw [Shape.rowMajor_val_four, Shape.rowMajor_val_two]
    show ((0 * 1 + 0) * 1 + 0) * 256 + k.val = 0 * 256 + k.val
    omega)]

/-! ## The heads side by side, the slices one below the other -/

/-- Column `e` of a slice's attended values is column `e mod 32` of head `e / 32`. -/
private theorem sliceRows_apply (qkv : FVec Ideal S2048x768 .f32) (ml : Vec Ideal S1x1x1x256 .f32) (nl : Fin 8 → Vec Ideal S1x1x256x256 .f32)
    (b : Fin 8) (n e : Fin 256) :
    sliceRows qkv ml nl b (ix2 n e)
      = head (qPart qkv b) (kPart qkv b) (vPart qkv b) (maskBias ml) (nl (headOf e)) (headOf e) (ix2 n (inHead e)) := by
  unfold sliceRows
  exact concatenate_ofFn_apply (t := S256x256) (s₁ := S256x32) 1
    (fun h : Fin 8 => head (qPart qkv b) (kPart qkv b) (vPart qkv b) (maskBias ml) (nl h) h) _ rfl 32 rfl (ix2 n e) (headOf e) rfl
    (ix2 n (inHead e)) rfl (fun a ha => match a, ha with
      | ⟨0, _⟩, _ => rfl
      | ⟨1, _⟩, ha => absurd rfl ha)

/-- Row `256 b + n` of the stacked slices is row `n` of slice `b`. -/
private theorem allRows_apply (qkv : FVec Ideal S2048x768 .f32) (ml : Fin 8 → Vec Ideal S1x1x1x256 .f32) (nl : Fin 8 → Vec Ideal S1x1x256x256 .f32)
    (b : Fin 8) (n e : Fin 256) :
    allRows qkv ml nl (ix2 (rowOf b n) e) = sliceRows qkv (ml b) nl b (ix2 n e) := by
  unfold allRows
  have hn := n.isLt
  exact concatenate_ofFn_apply (t := S2048x256) (s₁ := S256x256) 0
    (fun b : Fin 8 => sliceRows qkv (ml b) nl b) _ rfl 256 rfl (ix2 (rowOf b n) e) b
    (by show (256 * b.val + n.val) / 256 = b.val; omega)
    (ix2 n e) (by show n.val = (256 * b.val + n.val) % 256; omega) (fun a ha => match a, ha with
      | ⟨0, _⟩, ha => absurd rfl ha
      | ⟨1, _⟩, _ => rfl)

/-- A slice's attended values are the specification's, over the slice's rows, its mask row, the bias pages and the weights. -/
private theorem sliceRows_eq_attended (x : Vec Ideal S1x8x256x256 .f32) (w : Vec Ideal S256x768 .bf16) (ml : Vec Ideal S1x1x1x256 .f32)
    (nl : Fin 8 → Vec Ideal S1x1x256x256 .f32) (b : Fin 8) (n e : Fin 256) :
    sliceRows (qkvAll x w) ml nl b (ix2 n e)
      = attended (fun n d => x (ix4 0 b n d)) (fun k => ml (ix4 0 0 0 k)) (fun h n k => nl h (ix4 0 0 n k)) (fun e d => w (ix2 d e))
          n (headOf e) (inHead e) := by
  rw [sliceRows_apply, head_apply]
  unfold attended logit
  have hq : (fun n e => qPart (qkvAll x w) b (ix2 n e))
      = fun n e => proj (fun n d => x (ix4 0 b n d)) (fun e d => w (ix2 d e)) (qc e) n :=
    funext fun n => funext fun e => by rw [qPart_apply, qkvAll_apply x w b n (rowOf b n) rfl]; rfl
  have hk : (fun n e => kPart (qkvAll x w) b (ix2 n e))
      = fun n e => proj (fun n d => x (ix4 0 b n d)) (fun e d => w (ix2 d e)) (kc e) n :=
    funext fun n => funext fun e => by rw [kPart_apply, qkvAll_apply x w b n (rowOf b n) rfl]; rfl
  have hv : (fun n e => vPart (qkvAll x w) b (ix2 n e))
      = fun n e => proj (fun n d => x (ix4 0 b n d)) (fun e d => w (ix2 d e)) (vc e) n :=
    funext fun n => funext fun e => by rw [vPart_apply, qkvAll_apply x w b n (rowOf b n) rfl]; rfl
  have hm : (fun kk => maskBias ml (ix2 0 kk)) = mbias (fun k => ml (ix4 0 0 0 k)) := funext fun k => maskBias_apply ml k
  rw [hq, hk, hv, hm]

/-! ## The gate -/

private theorem gateAll_apply (x : Vec Ideal S1x8x256x256 .f32) (wg : Vec Ideal S256x256 .bf16) (gb : Vec Ideal S256 .f32)
    (b : Fin 8) (n : Fin 256) (r : Fin 2048) (hr : r.val = 256 * b.val + n.val) (e : Fin 256) :
    gateAll x wg gb (ix2 r e) = gate (fun n d => x (ix4 0 b n d)) (fun e d => wg (ix2 d e)) (fun e => gb (ix1 e)) n e := by
  unfold gateAll gate
  show Ideal.logistic (_ + _) = _
  refine congrArg Ideal.logistic (congrArg₂ (· + ·) ?_ ?_)
  · rw [matmul256_apply, shapeCast_self]
    exact Finset.sum_congr rfl fun d _ => by rw [rows_apply x b n r hr d]
  · rw [broadcastTo_1b_ab_apply, shapeCast_a_1a_apply]

/-! ## The output block -/

private theorem outRows_apply (x : Vec Ideal S1x8x256x256 .f32) (ml : Fin 8 → Vec Ideal S1x1x1x256 .f32) (nl : Fin 8 → Vec Ideal S1x1x256x256 .f32)
    (w : Vec Ideal S256x768 .bf16) (wg : Vec Ideal S256x256 .bf16) (gb : Vec Ideal S256 .f32) (wo : Vec Ideal S256x256 .bf16) (bo : Vec Ideal S256 .f32)
    (b : Fin 8) (n o : Fin 256) :
    outRows x ml nl w wg gb wo bo (ix2 (rowOf b n) o)
      = sliceOut (fun n d => x (ix4 0 b n d)) (fun k => ml b (ix4 0 0 0 k)) (fun h n k => nl h (ix4 0 0 n k))
          (fun e d => w (ix2 d e)) (fun e d => wg (ix2 d e)) (fun e => gb (ix1 e)) (fun o e => wo (ix2 e o)) (fun o => bo (ix1 o)) n o := by
  unfold outRows sliceOut
  show _ + _ = _
  refine congrArg₂ (· + ·) ?_ ?_
  · rw [matmul256_apply, shapeCast_self]
    refine Finset.sum_congr rfl fun e _ => ?_
    show (gateAll x wg gb (ix2 (rowOf b n) e) * allRows (qkvAll x w) ml nl (ix2 (rowOf b n) e)) * wo (ix2 e o) = _
    rw [gateAll_apply x wg gb b n (rowOf b n) rfl e, allRows_apply, sliceRows_eq_attended]
  · rw [broadcastTo_1b_ab_apply, shapeCast_a_1a_apply]

end KValue

theorem body_apply (x : Vec Ideal S1x8x256x256 .f32) (ml : Fin 8 → Vec Ideal S1x1x1x256 .f32) (nl : Fin 8 → Vec Ideal S1x1x256x256 .f32)
    (w : Vec Ideal S256x768 .bf16) (wg : Vec Ideal S256x256 .bf16) (gb : Vec Ideal S256 .f32) (wo : Vec Ideal S256x256 .bf16) (bo : Vec Ideal S256 .f32)
    (b : Fin 8) (n o : Fin 256) :
    body x ml nl w wg gb wo bo (ix4 0 b n o)
      = sliceOut (fun n d => x (ix4 0 b n d)) (fun k => ml b (ix4 0 0 0 k)) (fun h n k => nl h (ix4 0 0 n k))
          (fun e d => w (ix2 d e)) (fun e d => wg (ix2 d e)) (fun e => gb (ix1 e)) (fun o e => wo (ix2 e o)) (fun o => bo (ix1 o)) n o := by
  unfold body
  refine (shapeCast_abc_1abc_apply _ shapeCasts_S8x256x256_S1x8x256x256 0 b n o).trans ?_
  refine (shapeCast_apply _ shapeCasts_S2048x256_S8x256x256 (ix3 b n o) (ix2 (KValue.rowOf b n) o) ?_).trans ?_
  · rw [Shape.rowMajor_val_two, Shape.rowMajor_val_three]
    show (256 * b.val + n.val) * 256 + o.val = (b.val * 256 + n.val) * 256 + o.val
    omega
  · exact KValue.outRows_apply x ml nl w wg gb wo bo b n o

end Cert.KernelIdeal.Attn

end
-- ==== Proof.Blocks.lean ====
/-
  From the grid points' blocks to the whole output array.

  The grid has 16 points; point `t` handles slices `8 t … 8 t + 7` of the second batch axis. Its input block and its
  mask block are those slices of the arguments (the mask with a unit axis put in by a broadcast before the launch), the
  bias pages, the weights and the two bias vectors are the same whole arrays at every point, and the three weight
  matrices reach the kernel transposed (and narrowed, which changes nothing over the extended reals): entry `(d, e)`
  of what the kernel holds is entry `(e, d)` of the argument. So what point `t` writes back — slice `b`, position `n`,
  feature `o` of its block — is the specification's result at slice `8 t + b`; the 16 blocks tile the 128 slices
  (slice `B` lies in point `B / 8`'s block), hence the output array after the run is the specification's result
  array of the arguments as launched.
-/
import proofs.«403390_j858993459582_3_alg».proof.Proof.KValue
import proofs.«403390_j858993459582_3_alg».proof.Proof.Gen.KernelIdeal.Value
import Idealize.ShloMosaic.Lib.StableHlo.Run

set_option maxRecDepth 65536

noncomputable section

namespace Cert.KernelIdeal.AttnRun

open Cert.KernelIdeal Cert.KernelIdeal.Gen Cert.KernelIdeal.Attn Idealize.ShloMosaic Idealize.ShloMosaic.TcCoe Idealize.SL.Sem
open Idealize.ShloMosaic.ValueIdx Cert.AttnSpec
open Idealize.ShloMosaic.Pipeline (Dat)

variable (m : (ℓ : Loc nD τ sig) → Buf (Elt Ideal) ℓ) (ρ : Dev nD → PrngReg)

/-- The index maps over the 16 grid points, decided: the input block, the mask block and the output block move along the
    second axis with the point; every other window stays at block 0. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = 0 ∧ win0_2.index t (2 : Fin 4) = 0 ∧ win0_2.index t (3 : Fin 4) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 1) = 0)
    ∧ (win0_6.index t (0 : Fin 2) = 0 ∧ win0_6.index t (1 : Fin 2) = 0)
    ∧ (win0_7.index t (0 : Fin 1) = 0)
    ∧ (win0_8.index t (0 : Fin 4) = 0 ∧ win0_8.index t (1 : Fin 4) = t.val ∧ win0_8.index t (2 : Fin 4) = 0 ∧ win0_8.index t (3 : Fin 4) = 0) :=
  (by decide +kernel : ∀ t : Fin grid0.N, _)

/-- Before the launch the mask is broadcast into a `[1, 128, 1, 256]` array. -/
theorem V_main_v0 (c : Dev nD) : (V m c main_v0 : S1x128x1x256.Idx → EReal)
    = broadcastInDim S1x128x1x256 ![0, 1, 3] bcast_S1x128x256_S1x128x1x256_0_1_3 (m ((c : Thread nD τ).loc main_arg1)) := by
  dsimp only [V, hostOps0]; after_results

/-- Before the launch the query / key / value weights are transposed and narrowed; likewise the gate weights and the
    output weights below. -/
theorem V_main_v2 (c : Dev nD) : (V m c main_v2 : S256x768.Idx → EReal)
    = truncf (F := Ideal) .bf16 (transpose S256x768 [1, 0] (m ((c : Thread nD τ).loc main_arg3)) transposes_S768x256_S256x768_1_0) bitsLt_bf16_f32 := by
  dsimp only [V, hostOps0]; after_results

theorem V_main_v4 (c : Dev nD) : (V m c main_v4 : S256x256.Idx → EReal)
    = truncf (F := Ideal) .bf16 (transpose S256x256 [1, 0] (m ((c : Thread nD τ).loc main_arg4)) transposes_S256x256_S256x256_1_0) bitsLt_bf16_f32 := by
  dsimp only [V, hostOps0]; after_results

theorem V_main_v6 (c : Dev nD) : (V m c main_v6 : S256x256.Idx → EReal)
    = truncf (F := Ideal) .bf16 (transpose S256x256 [1, 0] (m ((c : Thread nD τ).loc main_arg6)) transposes_S256x256_S256x256_1_0) bitsLt_bf16_f32 := by
  dsimp only [V, hostOps0]; after_results

/-- The input block's entry: slice `b` of point `t` is slice `8 t + b` of the array. -/
theorem x_entry (c : Dev nD) (t : Fin cfg0.N) (b : Fin 8) (B : Fin 128) (hB : B.val = 8 * t.val + b.val) (n d : Fin 256) :
    View.ld (iblk m c 0 t) r0_0 (ix4 0 b n d) = m ((c : Thread nD τ).loc main_arg0) (ix4 0 B n d) := by
  obtain ⟨⟨e0, e1, e2, e3⟩, -⟩ := idx_facts t
  show V m c main_arg0 (((cfg0.win 0).blk t).view.emb (r0_0.idx (ix4 0 b n d))) = _
  rw [V_main_arg0]
  refine congrArg _ (funext fun a => Fin.ext ?_)
  match a with
  | ⟨0, _⟩ => show win0_0.index t (0 : Fin 4) * 1 + 1 * (0 + 1 * 0) = 0; omega
  | ⟨1, _⟩ => show win0_0.index t (1 : Fin 4) * 8 + 1 * (0 + 1 * b.val) = B.val; omega
  | ⟨2, _⟩ => show win0_0.index t (2 : Fin 4) * 256 + 1 * (0 + 1 * n.val) = n.val; omega
  | ⟨3, _⟩ => show win0_0.index t (3 : Fin 4) * 256 + 1 * (0 + 1 * d.val) = d.val; omega

/-- The mask block's entry. -/
theorem mask_entry (c : Dev nD) (t : Fin cfg0.N) (b : Fin 8) (B : Fin 128) (hB : B.val = 8 * t.val + b.val) (k : Fin 256) :
    View.ld (iblk m c 1 t) (maskRect b) (ix4 0 0 0 k) = m ((c : Thread nD τ).loc main_arg1) (ix3 0 B k) := by
  obtain ⟨-, ⟨e0, e1, e2, e3⟩, -⟩ := idx_facts t
  show V m c main_v0 (((cfg0.win 1).blk t).view.emb ((maskRect b).idx (ix4 0 0 0 k))) = _
  rw [V_main_v0]
  refine broadcastInDim_apply _ _ _ _ _ fun a => ?_
  match a with
  | ⟨0, _⟩ => rfl
  | ⟨1, _⟩ => show B.val = win0_1.index t (1 : Fin 4) * 8 + 1 * (b.val + 1 * 0); omega
  | ⟨2, _⟩ => show k.val = win0_1.index t (3 : Fin 4) * 256 + 1 * (0 + 1 * k.val); omega

/-- A bias page's entry: the bias block is the whole array at every point. -/
theorem bias_entry (c : Dev nD) (t : Fin cfg0.N) (h : Fin 8) (n k : Fin 256) :
    View.ld (iblk m c 2 t) (biasRect h) (ix4 0 0 n k) = m ((c : Thread nD τ).loc main_arg2) (ix4 0 h n k) := by
  obtain ⟨-, -, ⟨e0, e1, e2, e3⟩, -⟩ := idx_facts t
  show V m c main_arg2 (((cfg0.win 2).blk t).view.emb ((biasRect h).idx (ix4 0 0 n k))) = _
  rw [V_main_arg2]
  refine congrArg _ (funext fun a => Fin.ext ?_)
  match a with
  | ⟨0, _⟩ => show win0_2.index t (0 : Fin 4) * 1 + 1 * (0 + 1 * 0) = 0; omega
  | ⟨1, _⟩ => show win0_2.index t (1 : Fin 4) * 8 + 1 * (h.val + 1 * 0) = h.val; omega
  | ⟨2, _⟩ => show win0_2.index t (2 : Fin 4) * 256 + 1 * (0 + 1 * n.val) = n.val; omega
  | ⟨3, _⟩ => show win0_2.index t (3 : Fin 4) * 256 + 1 * (0 + 1 * k.val) = k.val; omega

/-- The projection weights as the kernel holds them are the transposed argument. -/
theorem wqkv_entry (c : Dev nD) (t : Fin cfg0.N) (e : Fin 768) (d : Fin 256) :
    View.ld (iblk m c 3 t) r0_1 (ix2 d e) = m ((c : Thread nD τ).loc main_arg3) (ix2 e d) := by
  obtain ⟨-, -, -, ⟨e0, e1⟩, -⟩ := idx_facts t
  show V m c main_v2 (((cfg0.win 3).blk t).view.emb (r0_1.idx (ix2 d e))) = _
  rw [V_main_v2]
  refine transpose_apply _ _ _ _ (ix2 e d) fun b => ?_
  match b with
  | ⟨0, _⟩ => show d.val = win0_3.index t (0 : Fin 2) * 256 + 1 * (0 + 1 * d.val); omega
  | ⟨1, _⟩ => show e.val = win0_3.index t (1 : Fin 2) * 768 + 1 * (0 + 1 * e.val); omega

theorem wg_entry (c : Dev nD) (t : Fin cfg0.N) (e d : Fin 256) :
    View.ld (iblk m c 4 t) r0_2 (ix2 d e) = m ((c : Thread nD τ).loc main_arg4) (ix2 e d) := by
  obtain ⟨-, -, -, -, ⟨e0, e1⟩, -⟩ := idx_facts t
  show V m c main_v4 (((cfg0.win 4).blk t).view.emb (r0_2.idx (ix2 d e))) = _
  rw [V_main_v4]
  refine transpose_apply _ _ _ _ (ix2 e d) fun b => ?_
  match b with
  | ⟨0, _⟩ => show d.val = win0_4.index t (0 : Fin 2) * 256 + 1 * (0 + 1 * d.val); omega
  | ⟨1, _⟩ => show e.val = win0_4.index t (1 : Fin 2) * 256 + 1 * (0 + 1 * e.val); omega

theorem gb_entry (c : Dev nD) (t : Fin cfg0.N) (e : Fin 256) :
    View.ld (iblk m c 5 t) r0_3 (ix1 e) = m ((c : Thread nD τ).loc main_arg5) (ix1 e) := by
  obtain ⟨-, -, -, -, -, e0, -⟩ := idx_facts t
  show V m c main_arg5 (((cfg0.win 5).blk t).view.emb (r0_3.idx (ix1 e))) = _
  rw [V_main_arg5]
  refine congrArg _ (funext fun a => Fin.ext ?_)
  match a with
  | ⟨0, _⟩ => show win0_5.index t (0 : Fin 1) * 256 + 1 * (0 + 1 * e.val) = e.val; omega

theorem wo_entry (c : Dev nD) (t : Fin cfg0.N) (o e : Fin 256) :
    View.ld (iblk m c 6 t) r0_2 (ix2 e o) = m ((c : Thread nD τ).loc main_arg6) (ix2 o e) := by
  obtain ⟨-, -, -, -, -, -, ⟨e0, e1⟩, -⟩ := idx_facts t
  show V m c main_v6 (((cfg0.win 6).blk t).view.emb (r0_2.idx (ix2 e o))) = _
  rw [V_main_v6]
  refine transpose_apply _ _ _ _ (ix2 o e) fun b => ?_
  match b with
  | ⟨0, _⟩ => show e.val = win0_6.index t (0 : Fin 2) * 256 + 1 * (0 + 1 * e.val); omega
  | ⟨1, _⟩ => show o.val = win0_6.index t (1 : Fin 2) * 256 + 1 * (0 + 1 * o.val); omega

theorem bo_entry (c : Dev nD) (t : Fin cfg0.N) (o : Fin 256) :
    View.ld (iblk m c 7 t) r0_3 (ix1 o) = m ((c : Thread nD τ).loc main_arg7) (ix1 o) := by
  obtain ⟨-, -, -, -, -, -, -, e0, -⟩ := idx_facts t
  show V m c main_arg7 (((cfg0.win 7).blk t).view.emb (r0_3.idx (ix1 o))) = _
  rw [V_main_arg7]
  refine congrArg _ (funext fun a => Fin.ext ?_)
  match a with
  | ⟨0, _⟩ => show win0_7.index t (0 : Fin 1) * 256 + 1 * (0 + 1 * o.val) = o.val; omega

theorem hz4 : (![0, 0, 0, 0] : Fin 4 → Nat) = fun _ => 0 := funext fun a => by fin_cases a <;> rfl

/-- The specification's result array of the arguments as launched. -/
abbrev Gm (c : Dev nD) : S1x128x256x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What point `t` writes back is block `t` of the result array: slices `8 t … 8 t + 7`. -/
theorem flushed_eq (c : Dev nD) (t : Fin cfg0.N) :
    (dats m 0 c).flushed 8 t = ((cfg0.win 8).blk t).view.read (Elt Ideal) (Gm m c) := by
  rw [Value.flushed8, out_eq_body, View.canon_unit_zero hz4]
  funext y
  obtain ⟨a, b, n, o, rfl⟩ : ∃ (a : Fin 1) (b : Fin 8) (n o : Fin 256), y = ix4 a b n o := ⟨y 0, y 1, y 2, y 3, eq_ix4 y⟩
  obtain ⟨-, -, -, -, -, -, -, -, ⟨e0, e1, e2, e3⟩⟩ := idx_facts t
  have ht : t.val < 16 := t.isLt
  have hb : b.val < 8 := b.isLt
  have hB : 8 * t.val + b.val < 128 := by omega
  have ha : a = 0 := Subsingleton.elim _ _
  subst ha
  have hidx : ((cfg0.win 8).blk t).view.emb (ix4 0 b n o) = ix4 (0 : Fin 1) (⟨8 * t.val + b.val, hB⟩ : Fin 128) n o :=
    funext fun ax => Fin.ext (by
      match ax with
      | ⟨0, _⟩ => show win0_8.index t (0 : Fin 4) * 1 + 1 * 0 = 0; omega
      | ⟨1, _⟩ => show win0_8.index t (1 : Fin 4) * 8 + 1 * b.val = 8 * t.val + b.val; omega
      | ⟨2, _⟩ => show win0_8.index t (2 : Fin 4) * 256 + 1 * n.val = n.val; omega
      | ⟨3, _⟩ => show win0_8.index t (3 : Fin 4) * 256 + 1 * o.val = o.val; omega)
  show body (F := Ideal) _ _ _ _ _ _ _ _ (ix4 0 b n o) = Gm m c (((cfg0.win 8).blk t).view.emb (ix4 0 b n o))
  rw [hidx, body_apply]
  show _ = atSlice _ _ _ _ _ _ _ _ ⟨8 * t.val + b.val, hB⟩ n o
  unfold atSlice
  simp only [x_entry m c t b ⟨8 * t.val + b.val, hB⟩ rfl, mask_entry m c t b ⟨8 * t.val + b.val, hB⟩ rfl, bias_entry m c t,
    wqkv_entry m c t, wg_entry m c t, gb_entry m c t, wo_entry m c t, bo_entry m c t]

/-- An index of the array is in point `t`'s block iff each coordinate is in the block's range on its axis. -/
theorem mem_blk (t : Fin cfg0.N) (i : S1x128x256x256.Idx) :
    i ∈ ((cfg0.win 8).blk t).view.set ↔ ∀ a : Fin 4, win0_8.index t a * S1x8x256x256.size a ≤ (i a).val ∧ (i a).val < win0_8.index t a * S1x8x256x256.size a + S1x8x256x256.size a := by
  show i ∈ ((View.whole main_v7).slice (win0_8.rect t)).set ↔ _
  rw [View.set_slice_whole, Rect.mem_set_unit]
  exact Iff.rfl

/-- Every slice lies in some point's block: slice `B` in point `B / 8`'s. -/
theorem cover (i : S1x128x256x256.Idx) : ∃ t : Fin cfg0.N, (cfg0.win 8).flush t = true ∧ i ∈ ((cfg0.win 8).blk t).view.set := by
  have h0 : (i 0).val < 1 := (i 0).isLt
  have h1 : (i 1).val < 128 := (i 1).isLt
  have h2 : (i 2).val < 256 := (i 2).isLt
  have h3 : (i 3).val < 256 := (i 3).isLt
  have hq : (i 1).val / 8 < cfg0.N := by show (i 1).val / 8 < 16; omega
  refine ⟨(⟨(i 1).val / 8, hq⟩ : Fin cfg0.N), flush0_8 _, ?_⟩
  obtain ⟨-, -, -, -, -, -, -, -, ⟨e0, e1, e2, e3⟩⟩ := idx_facts (⟨(i 1).val / 8, hq⟩ : Fin cfg0.N)
  have e1' : win0_8.index (⟨(i 1).val / 8, hq⟩ : Fin cfg0.N) (1 : Fin 4) = (i 1).val / 8 := e1
  rw [mem_blk]
  intro a
  match a with
  | ⟨0, _⟩ => show win0_8.index _ (0 : Fin 4) * 1 ≤ (i 0).val ∧ (i 0).val < win0_8.index _ (0 : Fin 4) * 1 + 1; omega
  | ⟨1, _⟩ => show win0_8.index _ (1 : Fin 4) * 8 ≤ (i 1).val ∧ (i 1).val < win0_8.index _ (1 : Fin 4) * 8 + 8; omega
  | ⟨2, _⟩ => show win0_8.index _ (2 : Fin 4) * 256 ≤ (i 2).val ∧ (i 2).val < win0_8.index _ (2 : Fin 4) * 256 + 256; omega
  | ⟨3, _⟩ => show win0_8.index _ (3 : Fin 4) * 256 ≤ (i 3).val ∧ (i 3).val < win0_8.index _ (3 : Fin 4) * 256 + 256; omega

/-- The output array after the run is the specification's result array. -/
theorem final (c : Dev nD) : (dats m 0 c).arrAt 8 cfg0.N = Gm m c :=
  (dats m 0 c).arrAt_eq_of_cover 8 (Gm m c) (fun t _ => flushed_eq m c t) cover

/-- The kernel's run: it terminates with the output array at the specification's function of the arguments, the
    arguments unchanged. -/
theorem run : θ_run defs (onTc (τ := τ) (main (F := Ideal))) ⟨m, fun _ => 0, ρ⟩ fun r => ∀ c : Dev nD,
      r.2.mem ((c : Thread nD τ).loc main_v7) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.AttnRun

end
-- ==== Proof.RefWeights.lean ====
/-
  The reference's attention weights and values, read at an entry.

  The reference projects all slices at once, splits the 768 columns into queries, keys and values, reshapes each into
  eight heads of 32 features and moves the head axis in front of the positions. Read at slice `B`, head `h`: the
  logits are the specification's `logit` of the slice (the mask enters broadcast over heads and query positions as
  `(mask - 1) * 1e9`, the bias pages broadcast over slices), the softmax is `softW` (the reference's extra
  `max (-inf) ·` around the row maximum changes nothing: the fold already starts at `-inf`; its row sum starts
  from zero), and the values are the projection on the value columns.
-/
import proofs.«403390_j858993459582_3_alg».proof.Proof.Gen.ReferenceIdeal.Read
import proofs.«403390_j858993459582_3_alg».proof.Proof.Spec
import Idealize.ShloMosaic.PureOps.Ideal.Laws
import Idealize.ShloMosaic.Lib.ValueIdx
import Idealize.ShloMosaic.Lib.Pipeline.Value

set_option maxRecDepth 65536

noncomputable section

namespace Cert.ReferenceIdeal.RefValue

open Cert.ReferenceIdeal Cert.ReferenceIdeal.Gen Cert.ReferenceIdeal.Read Idealize.ShloMosaic Idealize.ShloMosaic.ValueIdx Cert.AttnSpec

section Proj
variable (x0 : (⟨S1x128x256x256, .f32⟩ : BufTy).Contents (Elt Ideal)) (x3 : (⟨S768x256, .f32⟩ : BufTy).Contents (Elt Ideal))

/-- The projection of all slices at once, read at slice `B`, position `n`, row `e` of the 768 weight rows: the
    contraction over the 256 features. The leading axis has one element. -/
private theorem v0_at (a : Fin 1) (B : Fin 128) (n : Fin 256) (e : Fin 768) :
    val_main_v0 (F := Ideal) x0 x3 (ix4 a B n e) = proj (fun n d => x0 (ix4 0 B n d)) (fun e d => x3 (ix2 e d)) e n := by
  obtain rfl : a = 0 := Subsingleton.elim _ _
  rw [val_main_v0_apply]
  unfold proj
  refine Finset.sum_congr rfl fun d _ => ?_
  have el : lidx_main_v0 (ix4 (0 : Fin 1) B n e) d = ix4 0 B n d := funext fun x => Fin.ext (by
    match x with
    | ⟨0, _⟩ => rfl
    | ⟨1, _⟩ => rfl
    | ⟨2, _⟩ => rfl
    | ⟨3, _⟩ => rfl)
  have er : ridx_main_v0 (ix4 (0 : Fin 1) B n e) d = ix2 e d := funext fun x => Fin.ext (by
    match x with
    | ⟨0, _⟩ => rfl
    | ⟨1, _⟩ => rfl)
  rw [el, er]

/-- The query columns: the first 256 of the 768. -/
private theorem v1_at (a : Fin 1) (B : Fin 128) (n : Fin 256) (e : Fin 256) :
    val_main_v1 (F := Ideal) x0 x3 (ix4 a B n e) = proj (fun n d => x0 (ix4 0 B n d)) (fun e d => x3 (ix2 e d)) (qc e) n := by
  rw [val_main_v1_apply]
  have ei : idx_main_v1 (ix4 a B n e) = ix4 a B n (qc e) := funext fun x => Fin.ext (by
    match x with
    | ⟨0, _⟩ => rfl
    | ⟨1, _⟩ => rfl
    | ⟨2, _⟩ => rfl
    | ⟨3, _⟩ => rfl)
  rw [ei, v0_at]

/-- The key columns: the second 256 of the 768. -/
private theorem v2_at (a : Fin 1) (B : Fin 128) (n : Fin 256) (e : Fin 256) :
    val_main_v2 (F := Ideal) x0 x3 (ix4 a B n e) = proj (fun n d => x0 (ix4 0 B n d)) (fun e d => x3 (ix2 e d)) (kc e) n := by
  rw [val_main_v2_apply]
  have ei : idx_main_v2 (ix4 a B n e) = ix4 a B n (kc e) := funext fun x => Fin.ext (by
    match x with
    | ⟨0, _⟩ => rfl
    | ⟨1, _⟩ => rfl
    | ⟨2, _⟩ => rfl
    | ⟨3, _⟩ => rfl)
  rw [ei, v0_at]

/-- The value columns: the third 256 of the 768. -/
private theorem v3_at (a : Fin 1) (B : Fin 128) (n : Fin 256) (e : Fin 256) :
    val_main_v3 (F := Ideal) x0 x3 (ix4 a B n e) = proj (fun n d => x0 (ix4 0 B n d)) (fun e d => x3 (ix2 e d)) (vc e) n := by
  rw [val_main_v3_apply]
  have ei : idx_main_v3 (ix4 a B n e) = ix4 a B n (vc e) := funext fun x => Fin.ext (by
    match x with
    | ⟨0, _⟩ => rfl
    | ⟨1, _⟩ => rfl
    | ⟨2, _⟩ => rfl
    | ⟨3, _⟩ => rfl)
  rw [ei, v0_at]

/-- The queries as eight heads of 32 features: column `32 h + c` (the reshape keeps the row-major order). -/
private theorem v4_at (a : Fin 1) (B : Fin 128) (n : Fin 256) (h : Fin 8) (c : Fin 32) :
    val_main_v4 (F := Ideal) x0 x3 (ix5 a B n h c) = proj (fun n d => x0 (ix4 0 B n d)) (fun e d => x3 (ix2 e d)) (qc (hcol h c)) n := by
  rw [val_main_v4_apply]
  have ei : idx_main_v4 (ix5 a B n h c) = ix4 a B n (hcol h c) := funext fun x => Fin.ext (by
    have ha := a.isLt; have hB := B.isLt; have hn := n.isLt; have hh := h.isLt; have hc := c.isLt
    match x with
    | ⟨0, _⟩ => show 0 = a.val; omega
    | ⟨1, _⟩ => show ((((a.val * 128 + B.val) * 256 + n.val) * 8 + h.val) * 32 + c.val) / 65536 % 128 = B.val; omega
    | ⟨2, _⟩ => show ((((a.val * 128 + B.val) * 256 + n.val) * 8 + h.val) * 32 + c.val) / 256 % 256 = n.val; omega
    | ⟨3, _⟩ => show ((((a.val * 128 + B.val) * 256 + n.val) * 8 + h.val) * 32 + c.val) % 256 = 32 * h.val + c.val; omega)
  rw [ei, v1_at]

/-- The keys as eight heads of 32 features. -/
private theorem v8_at (a : Fin 1) (B : Fin 128) (n : Fin 256) (h : Fin 8) (c : Fin 32) :
    val_main_v8 (F := Ideal) x0 x3 (ix5 a B n h c) = proj (fun n d => x0 (ix4 0 B n d)) (fun e d => x3 (ix2 e d)) (kc (hcol h c)) n := by
  rw [val_main_v8_apply]
  have ei : idx_main_v8 (ix5 a B n h c) = ix4 a B n (hcol h c) := funext fun x => Fin.ext (by
    have ha := a.isLt; have hB := B.isLt; have hn := n.isLt; have hh := h.isLt; have hc := c.isLt
    match x with
    | ⟨0, _⟩ => show 0 = a.val; omega
    | ⟨1, _⟩ => show ((((a.val * 128 + B.val) * 256 + n.val) * 8 + h.val) * 32 + c.val) / 65536 % 128 = B.val; omega
    | ⟨2, _⟩ => show ((((a.val * 128 + B.val) * 256 + n.val) * 8 + h.val) * 32 + c.val) / 256 % 256 = n.val; omega
    | ⟨3, _⟩ => show ((((a.val * 128 + B.val) * 256 + n.val) * 8 + h.val) * 32 + c.val) % 256 = 32 * h.val + c.val; omega)
  rw [ei, v2_at]

/-- The values as eight heads of 32 features. -/
private theorem v10_at (a : Fin 1) (B : Fin 128) (n : Fin 256) (h : Fin 8) (c : Fin 32) :
    val_main_v10 (F := Ideal) x0 x3 (ix5 a B n h c) = proj (fun n d => x0 (ix4 0 B n d)) (fun e d => x3 (ix2 e d)) (vc (hcol h c)) n := by
  rw [val_main_v10_apply]
  have ei : idx_main_v10 (ix5 a B n h c) = ix4 a B n (hcol h c) := funext fun x => Fin.ext (by
    have ha := a.isLt; have hB := B.isLt; have hn := n.isLt; have hh := h.isLt; have hc := c.isLt
    match x with
    | ⟨0, _⟩ => show 0 = a.val; omega
    | ⟨1, _⟩ => show ((((a.val * 128 + B.val) * 256 + n.val) * 8 + h.val) * 32 + c.val) / 65536 % 128 = B.val; omega
    | ⟨2, _⟩ => show ((((a.val * 128 + B.val) * 256 + n.val) * 8 + h.val) * 32 + c.val) / 256 % 256 = n.val; omega
    | ⟨3, _⟩ => show ((((a.val * 128 + B.val) * 256 + n.val) * 8 + h.val) * 32 + c.val) % 256 = 32 * h.val + c.val; omega)
  rw [ei, v3_at]

/-- The queries with the head axis in front of the positions. -/
private theorem v5_at (a : Fin 1) (B : Fin 128) (h : Fin 8) (n : Fin 256) (c : Fin 32) :
    val_main_v5 (F := Ideal) x0 x3 (ix5 a B h n c) = proj (fun n d => x0 (ix4 0 B n d)) (fun e d => x3 (ix2 e d)) (qc (hcol h c)) n := by
  rw [val_main_v5_apply]
  have ei : idx_main_v5 (ix5 a B h n c) = ix5 a B n h c := funext fun x => Fin.ext (by
    match x with
    | ⟨0, _⟩ => rfl
    | ⟨1, _⟩ => rfl
    | ⟨2, _⟩ => rfl
    | ⟨3, _⟩ => rfl
    | ⟨4, _⟩ => rfl)
  rw [ei, v4_at]

/-- The keys with the head axis in front of the positions. -/
private theorem v9_at (a : Fin 1) (B : Fin 128) (h : Fin 8) (n : Fin 256) (c : Fin 32) :
    val_main_v9 (F := Ideal) x0 x3 (ix5 a B h n c) = proj (fun n d => x0 (ix4 0 B n d)) (fun e d => x3 (ix2 e d)) (kc (hcol h c)) n := by
  rw [val_main_v9_apply]
  have ei : idx_main_v9 (ix5 a B h n c) = ix5 a B n h c := funext fun x => Fin.ext (by
    match x with
    | ⟨0, _⟩ => rfl
    | ⟨1, _⟩ => rfl
    | ⟨2, _⟩ => rfl
    | ⟨3, _⟩ => rfl
    | ⟨4, _⟩ => rfl)
  rw [ei, v8_at]

/-- The scaled queries. -/
private theorem v7_at (a : Fin 1) (B : Fin 128) (h : Fin 8) (n : Fin 256) (c : Fin 32) :
    val_main_v7 (F := Ideal) x0 x3 (ix5 a B h n c)
      = proj (fun n d => x0 (ix4 0 B n d)) (fun e d => x3 (ix2 e d)) (qc (hcol h c)) n * Ideal.ofBits .f32 0x3E3504F3#32 := by
  rw [val_main_v7_apply, val_main_v6_apply, val_main_cst_apply, v5_at]
  rfl

/-- Scaled queries against keys over the head's 32 features. -/
private theorem v12_at (a : Fin 1) (B : Fin 128) (h : Fin 8) (n k : Fin 256) :
    val_main_v12 (F := Ideal) x0 x3 (ix5 a B h n k)
      = ∑ c : Fin 32, (proj (fun n d => x0 (ix4 0 B n d)) (fun e d => x3 (ix2 e d)) (qc (hcol h c)) n * Ideal.ofBits .f32 0x3E3504F3#32)
          * proj (fun n d => x0 (ix4 0 B n d)) (fun e d => x3 (ix2 e d)) (kc (hcol h c)) k := by
  rw [val_main_v12_apply]
  refine Finset.sum_congr rfl fun c _ => ?_
  have el : lidx_main_v12 (ix5 a B h n k) c = ix5 a B h n c := funext fun x => Fin.ext (by
    match x with
    | ⟨0, _⟩ => rfl
    | ⟨1, _⟩ => rfl
    | ⟨2, _⟩ => rfl
    | ⟨3, _⟩ => rfl
    | ⟨4, _⟩ => rfl)
  have er : ridx_main_v12 (ix5 a B h n k) c = ix5 a B h k c := funext fun x => Fin.ext (by
    match x with
    | ⟨0, _⟩ => rfl
    | ⟨1, _⟩ => rfl
    | ⟨2, _⟩ => rfl
    | ⟨3, _⟩ => rfl
    | ⟨4, _⟩ => rfl)
  rw [el, er, v7_at, v9_at]

end Proj

section Mask
variable (x1 : (⟨S1x128x256, .f32⟩ : BufTy).Contents (Elt Ideal)) (x2 : (⟨S1x8x256x256, .f32⟩ : BufTy).Contents (Elt Ideal))

/-- The mask as a bias along the keys, broadcast over heads and query positions: `(mask - 1) * 1e9`. -/
private theorem v18_at (a : Fin 1) (B : Fin 128) (h : Fin 8) (n k : Fin 256) :
    val_main_v18 (F := Ideal) x1 (ix5 a B h n k) = mbias (fun k => x1 (ix3 0 B k)) k := by
  rw [val_main_v18_apply, val_main_v17_apply, val_main_v15_apply, val_main_v13_apply, val_main_v14_apply,
    val_main_v16_apply, val_main_cst_0_apply, val_main_cst_1_apply]
  have ei : idx_main_v13 (idx_main_v18 (ix5 a B h n k)) = ix3 0 B k := funext fun x => Fin.ext (by
    match x with
    | ⟨0, _⟩ => rfl
    | ⟨1, _⟩ => rfl
    | ⟨2, _⟩ => rfl)
  rw [ei]
  rfl

/-- The bias pages, broadcast over slices. -/
private theorem v21_at (a : Fin 1) (B : Fin 128) (h : Fin 8) (n k : Fin 256) :
    val_main_v21 (F := Ideal) x2 (ix5 a B h n k) = x2 (ix4 0 h n k) := by
  rw [val_main_v21_apply, val_main_v20_apply]
  have ei : idx_main_v20 (idx_main_v21 (ix5 a B h n k)) = ix4 0 h n k := funext fun x => Fin.ext (by
    match x with
    | ⟨0, _⟩ => rfl
    | ⟨1, _⟩ => rfl
    | ⟨2, _⟩ => rfl
    | ⟨3, _⟩ => rfl)
  rw [ei]

end Mask

section Soft
variable (x0 : (⟨S1x128x256x256, .f32⟩ : BufTy).Contents (Elt Ideal)) (x1 : (⟨S1x128x256, .f32⟩ : BufTy).Contents (Elt Ideal))
  (x2 : (⟨S1x8x256x256, .f32⟩ : BufTy).Contents (Elt Ideal)) (x3 : (⟨S768x256, .f32⟩ : BufTy).Contents (Elt Ideal))

/-- The logits: scaled queries against keys, then the mask bias, then the bias page, in this order. -/
private theorem v22_at (a : Fin 1) (B : Fin 128) (h : Fin 8) (n k : Fin 256) :
    val_main_v22 (F := Ideal) x0 x1 x2 x3 (ix5 a B h n k) = logit (fun n d => x0 (ix4 0 B n d)) (fun k => x1 (ix3 0 B k)) (fun h n k => x2 (ix4 0 h n k)) (fun e d => x3 (ix2 e d)) h n k := by
  rw [val_main_v22_apply, val_main_v19_apply, v12_at, v18_at, v21_at]
  rfl

/-- The row maximum: the fold of `max` from `-inf` over the key positions (a fold of a commutative, associative
    operation does not depend on the order the reduction visits the row in). -/
private theorem v23_at (a : Fin 1) (B : Fin 128) (h : Fin 8) (n : Fin 256) :
    val_main_v23 (F := Ideal) x0 x1 x2 x3 (ix4 a B h n) = rowMax (logit (fun n d => x0 (ix4 0 B n d)) (fun k => x1 (ix3 0 B k)) (fun h n k => x2 (ix4 0 h n k)) (fun e d => x3 (ix2 e d)) h n) := by
  have hr : S1x128x8x256x256.Reduces [4] S1x128x8x256 := by decide
  unfold val_main_v23 rowMax
  refine (Host.reduce_eq_fold_single FloatOps.maximumf _ _ reducesTo_S1x128x8x256x256_S1x128x8x256_d4 hr h_S_ _).trans ?_
  refine Finset.fold_congr (s := (Finset.univ : Finset (Fin 256))) fun (k : Fin 256) _ => ?_
  have ei : hr.lift (ix4 a B h n) k = ix5 a B h n k := funext fun x => Fin.ext (by
    match x with
    | ⟨0, _⟩ => rfl
    | ⟨1, _⟩ => rfl
    | ⟨2, _⟩ => rfl
    | ⟨3, _⟩ => rfl
    | ⟨4, _⟩ => rfl)
  show val_main_v22 (F := Ideal) x0 x1 x2 x3 (hr.lift (ix4 a B h n) k) = _
  rw [ei, v22_at]

/-- The reference's extra `max (-inf) ·` around the row maximum changes nothing: the fold already starts there. -/
private theorem v25_at (a : Fin 1) (B : Fin 128) (h : Fin 8) (n : Fin 256) :
    val_main_v25 (F := Ideal) x0 x1 x2 x3 (ix4 a B h n) = rowMax (logit (fun n d => x0 (ix4 0 B n d)) (fun k => x1 (ix3 0 B k)) (fun h n k => x2 (ix4 0 h n k)) (fun e d => x3 (ix2 e d)) h n) := by
  rw [val_main_v25_apply, val_main_v24_apply, val_main_cst_3_apply, v23_at]
  show max (Ideal.ofBits .f32 0xFF800000#32) (rowMax _) = rowMax _
  exact max_eq_right ((Finset.le_fold_max _).mpr (Or.inl le_rfl))

/-- The softmax numerator. -/
private theorem v29_at (a : Fin 1) (B : Fin 128) (h : Fin 8) (n k : Fin 256) :
    val_main_v29 (F := Ideal) x0 x1 x2 x3 (ix5 a B h n k) = softExp (logit (fun n d => x0 (ix4 0 B n d)) (fun k => x1 (ix3 0 B k)) (fun h n k => x2 (ix4 0 h n k)) (fun e d => x3 (ix2 e d)) h) n k := by
  rw [val_main_v29_apply, val_main_v28_apply, val_main_v27_apply, val_main_v26_apply, v22_at]
  have ei : idx_main_v26 (idx_main_v27 (ix5 a B h n k)) = ix4 0 B h n := funext fun x => Fin.ext (by
    match x with
    | ⟨0, _⟩ => rfl
    | ⟨1, _⟩ => rfl
    | ⟨2, _⟩ => rfl
    | ⟨3, _⟩ => rfl)
  rw [ei, v25_at]
  rfl

/-- The softmax denominator: the row sum starts from zero. -/
private theorem v30_at (a : Fin 1) (B : Fin 128) (h : Fin 8) (n : Fin 256) :
    val_main_v30 (F := Ideal) x0 x1 x2 x3 (ix4 a B h n) = ∑ k' : Fin 256, softExp (logit (fun n d => x0 (ix4 0 B n d)) (fun k => x1 (ix3 0 B k)) (fun h n k => x2 (ix4 0 h n k)) (fun e d => x3 (ix2 e d)) h) n k' := by
  rw [val_main_v30_apply, val_main_cst_4_apply, Ideal.ofBits_def, Ideal.ofBits_zero_f32, zero_add]
  refine Finset.sum_congr rfl fun k _ => ?_
  have ei : idx_main_v30 (ix4 a B h n) k = ix5 a B h n k := funext fun x => Fin.ext (by
    match x with
    | ⟨0, _⟩ => rfl
    | ⟨1, _⟩ => rfl
    | ⟨2, _⟩ => rfl
    | ⟨3, _⟩ => rfl
    | ⟨4, _⟩ => rfl)
  rw [ei, v29_at]

end Soft

/-- The projected values, head axis in front: slice `B`, head `h`, position `k`, feature `c`. -/
theorem values_apply (x0 : (⟨S1x128x256x256, .f32⟩ : BufTy).Contents (Elt Ideal)) (x3 : (⟨S768x256, .f32⟩ : BufTy).Contents (Elt Ideal))
    (a : Fin 1) (B : Fin 128) (h : Fin 8) (k : Fin 256) (c : Fin 32) :
    val_main_v11 (F := Ideal) x0 x3 (ix5 a B h k c)
      = proj (fun n d => x0 (ix4 0 B n d)) (fun e d => x3 (ix2 e d)) (vc (hcol h c)) k := by
  rw [val_main_v11_apply]
  have ei : idx_main_v11 (ix5 a B h k c) = ix5 a B k h c := funext fun x => Fin.ext (by
    match x with
    | ⟨0, _⟩ => rfl
    | ⟨1, _⟩ => rfl
    | ⟨2, _⟩ => rfl
    | ⟨3, _⟩ => rfl
    | ⟨4, _⟩ => rfl)
  rw [ei, v10_at]

/-- The softmax weights: slice `B`, head `h`, query position `n`, key position `k`. -/
theorem weights_apply (x0 : (⟨S1x128x256x256, .f32⟩ : BufTy).Contents (Elt Ideal)) (x1 : (⟨S1x128x256, .f32⟩ : BufTy).Contents (Elt Ideal))
    (x2 : (⟨S1x8x256x256, .f32⟩ : BufTy).Contents (Elt Ideal)) (x3 : (⟨S768x256, .f32⟩ : BufTy).Contents (Elt Ideal))
    (a : Fin 1) (B : Fin 128) (h : Fin 8) (n k : Fin 256) :
    val_main_v33 (F := Ideal) x0 x1 x2 x3 (ix5 a B h n k)
      = softW (logit (fun n d => x0 (ix4 0 B n d)) (fun k => x1 (ix3 0 B k)) (fun h n k => x2 (ix4 0 h n k)) (fun e d => x3 (ix2 e d)) h) n k := by
  rw [val_main_v33_apply, val_main_v32_apply, val_main_v31_apply, v29_at]
  have ei : idx_main_v31 (idx_main_v32 (ix5 a B h n k)) = ix4 0 B h n := funext fun x => Fin.ext (by
    match x with
    | ⟨0, _⟩ => rfl
    | ⟨1, _⟩ => rfl
    | ⟨2, _⟩ => rfl
    | ⟨3, _⟩ => rfl)
  rw [ei, v30_at]
  rfl

end Cert.ReferenceIdeal.RefValue

end
-- ==== Proof.RefValue.lean ====
/-
  The reference's result array is the specification's `G` of the argument arrays.

  After the attention weights meet the values, the reference moves the head axis back behind the positions and merges
  head and feature into one axis of 256 (column `e` is feature `e mod 32` of head `e / 32`), multiplies by the gate
  `1 / (1 + exp (-(x Wg^T + gb)))` — the logistic function spelt out —, projects by the output weights and adds the
  output bias.
-/
import proofs.«403390_j858993459582_3_alg».proof.Proof.RefWeights

set_option maxRecDepth 65536

noncomputable section

namespace Cert.ReferenceIdeal.RefValue

open Cert.ReferenceIdeal Cert.ReferenceIdeal.Gen Cert.ReferenceIdeal.Read Idealize.ShloMosaic Idealize.ShloMosaic.ValueIdx Cert.AttnSpec

/-- The f32 pattern `0x3F800000` is the extended real one. -/
private theorem one_f32 : Ideal.ofBits .f32 0x3F800000#32 = 1 := IdealRules.sign_bit.ideal_onePat .f32

/-! ## The attended values at an entry

Column `e` of the merged axis is feature `e mod 32` of head `e / 32`: undoing the reshape and the transpose, entry
`(a, B, n, e)` reads the contraction's entry `(a, B, e / 32, n, e mod 32)`, whose summand at key `k` takes the weights
at `(a, B, e / 32, n, k)` and the values at `(a, B, e / 32, k, e mod 32)`. The first axis has one element. -/

private theorem lidx34 (a : Fin 1) (B : Fin 128) (n e k : Fin 256) :
    lidx_main_v34 (idx_main_v35 (idx_main_v36 (ix4 a B n e))) k = ix5 a B (headOf e) n k := by
  funext d
  refine Fin.ext ?_
  have ha := a.isLt; have hB := B.isLt; have hn := n.isLt; have he := e.isLt
  match d with
  | ⟨0, _⟩ => show 0 = a.val; omega
  | ⟨1, _⟩ => show (((a.val * 128 + B.val) * 256 + n.val) * 256 + e.val) / 65536 % 128 = B.val; omega
  | ⟨2, _⟩ => show (((a.val * 128 + B.val) * 256 + n.val) * 256 + e.val) / 32 % 8 = e.val / 32; omega
  | ⟨3, _⟩ => show (((a.val * 128 + B.val) * 256 + n.val) * 256 + e.val) / 256 % 256 = n.val; omega
  | ⟨4, _⟩ => rfl

private theorem ridx34 (a : Fin 1) (B : Fin 128) (n e k : Fin 256) :
    ridx_main_v34 (idx_main_v35 (idx_main_v36 (ix4 a B n e))) k = ix5 a B (headOf e) k (inHead e) := by
  funext d
  refine Fin.ext ?_
  have ha := a.isLt; have hB := B.isLt; have hn := n.isLt; have he := e.isLt
  match d with
  | ⟨0, _⟩ => show 0 = a.val; omega
  | ⟨1, _⟩ => show (((a.val * 128 + B.val) * 256 + n.val) * 256 + e.val) / 65536 % 128 = B.val; omega
  | ⟨2, _⟩ => show (((a.val * 128 + B.val) * 256 + n.val) * 256 + e.val) / 32 % 8 = e.val / 32; omega
  | ⟨3, _⟩ => rfl
  | ⟨4, _⟩ => show (((a.val * 128 + B.val) * 256 + n.val) * 256 + e.val) % 32 = e.val % 32; omega

/-- Slice `B`, position `n`, merged column `e`: the weights of head `e / 32` summed against that head's value column
    `e mod 32` over the 256 keys. -/
private theorem attended_apply (x0 : (⟨S1x128x256x256, .f32⟩ : BufTy).Contents (Elt Ideal)) (x1 : (⟨S1x128x256, .f32⟩ : BufTy).Contents (Elt Ideal))
    (x2 : (⟨S1x8x256x256, .f32⟩ : BufTy).Contents (Elt Ideal)) (x3 : (⟨S768x256, .f32⟩ : BufTy).Contents (Elt Ideal))
    (a : Fin 1) (B : Fin 128) (n e : Fin 256) :
    val_main_v36 (F := Ideal) x0 x1 x2 x3 (ix4 a B n e)
      = attended (fun n d => x0 (ix4 0 B n d)) (fun k => x1 (ix3 0 B k)) (fun h n k => x2 (ix4 0 h n k)) (fun e d => x3 (ix2 e d)) n (headOf e) (inHead e) := by
  rw [val_main_v36_apply, val_main_v35_apply, val_main_v34_apply]
  unfold attended hattend
  refine Finset.sum_congr rfl fun k _ => ?_
  rw [lidx34, ridx34, weights_apply, values_apply]

/-! ## The gate at an entry

`x Wg^T` at `(a, B, n, e)` sums `x0 (0, B, n, d) * x4 (e, d)` over `d`; the gate bias is broadcast along the last axis;
and `1 / (1 + exp (-z))` with both ones the pattern of 1.0 is the logistic function as the extended reals define it. -/

private theorem lidx37 (a : Fin 1) (B : Fin 128) (n e k : Fin 256) :
    lidx_main_v37 (ix4 a B n e) k = ix4 0 B n k := by
  funext d
  refine Fin.ext ?_
  have ha := a.isLt
  match d with
  | ⟨0, _⟩ => show a.val = 0; omega
  | ⟨1, _⟩ => rfl
  | ⟨2, _⟩ => rfl
  | ⟨3, _⟩ => rfl

private theorem ridx37 (a : Fin 1) (B : Fin 128) (n e k : Fin 256) :
    ridx_main_v37 (ix4 a B n e) k = ix2 e k := by
  funext d
  refine Fin.ext ?_
  match d with
  | ⟨0, _⟩ => rfl
  | ⟨1, _⟩ => rfl

private theorem idx3839 (a : Fin 1) (B : Fin 128) (n e : Fin 256) :
    idx_main_v38 (idx_main_v39 (ix4 a B n e)) = ix1 e := by
  funext d
  refine Fin.ext ?_
  match d with
  | ⟨0, _⟩ => rfl

private theorem gate_apply (x0 : (⟨S1x128x256x256, .f32⟩ : BufTy).Contents (Elt Ideal)) (x4 : (⟨S256x256, .f32⟩ : BufTy).Contents (Elt Ideal))
    (x5 : (⟨S256, .f32⟩ : BufTy).Contents (Elt Ideal)) (a : Fin 1) (B : Fin 128) (n e : Fin 256) :
    val_main_v46 (F := Ideal) x0 x4 x5 (ix4 a B n e)
      = gate (fun n d => x0 (ix4 0 B n d)) (fun e d => x4 (ix2 e d)) (fun e => x5 (ix1 e)) n e := by
  rw [val_main_v46_apply, val_main_v45_apply, val_main_cst_6_apply, val_main_v44_apply, val_main_v43_apply,
    val_main_cst_5_apply, val_main_v42_apply, val_main_v41_apply, val_main_v40_apply, val_main_v37_apply,
    val_main_v39_apply, val_main_v38_apply, idx3839]
  simp only [Ideal.hostDivf_def, Ideal.addf_def, Ideal.hostUnary_exp_def, Ideal.hostNegf_def, Ideal.ofBits_def, one_f32,
    lidx37, ridx37]
  rfl

/-! ## The output projection and bias

Entry `(a, B, n, o)` sums (gate times attended values) at `(a, B, n, e)` against `x6 (o, e)` over `e`, and adds the
output bias broadcast along the last axis. -/

private theorem lidx48 (a : Fin 1) (B : Fin 128) (n o k : Fin 256) :
    lidx_main_v48 (ix4 a B n o) k = ix4 a B n k := by
  funext d
  refine Fin.ext ?_
  match d with
  | ⟨0, _⟩ => rfl
  | ⟨1, _⟩ => rfl
  | ⟨2, _⟩ => rfl
  | ⟨3, _⟩ => rfl

private theorem ridx48 (a : Fin 1) (B : Fin 128) (n o k : Fin 256) :
    ridx_main_v48 (ix4 a B n o) k = ix2 o k := by
  funext d
  refine Fin.ext ?_
  match d with
  | ⟨0, _⟩ => rfl
  | ⟨1, _⟩ => rfl

private theorem idx4950 (a : Fin 1) (B : Fin 128) (n o : Fin 256) :
    idx_main_v49 (idx_main_v50 (ix4 a B n o)) = ix1 o := by
  funext d
  refine Fin.ext ?_
  match d with
  | ⟨0, _⟩ => rfl

theorem result_eq (x0 : (⟨S1x128x256x256, .f32⟩ : BufTy).Contents (Elt Ideal)) (x1 : (⟨S1x128x256, .f32⟩ : BufTy).Contents (Elt Ideal))
    (x2 : (⟨S1x8x256x256, .f32⟩ : BufTy).Contents (Elt Ideal)) (x3 : (⟨S768x256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v51 (F := Ideal) x0 x1 x2 x3 x4 x5 x6 x7 = G x0 x1 x2 x3 x4 x5 x6 x7 := by
  funext i
  obtain ⟨a, B, n, o, rfl⟩ : ∃ a B n o, i = ix4 a B n o := ⟨i 0, i 1, i 2, i 3, eq_ix4 i⟩
  rw [G_apply, val_main_v51_apply, val_main_v48_apply, val_main_v50_apply, val_main_v49_apply, idx4950]
  unfold atSlice sliceOut
  simp only [Ideal.addf_def]
  refine congrArg (· + x7 (ix1 o)) ?_
  refine Finset.sum_congr rfl fun e _ => ?_
  rw [lidx48, ridx48, val_main_v47_apply, gate_apply, attended_apply]
  rfl

end Cert.ReferenceIdeal.RefValue

end
-- ==== Proof.lean ====
/-
  Gated multi-head attention with a pair bias: the Pallas kernel against its jnp reference, over the extended reals.

  Both programs compute, for each of the 128 slices of the second batch axis independently, the specification's
  `sliceOut` (Proof/Spec.lean): the query / key / value projection of the slice's 256 positions, per head the logits
  `(q s) k^T + (mask - 1) 1e9 + bias page`, the row-wise softmax, the weighted values, the logistic gate, the output
  projection and bias. They differ only in layout: the kernel works on eight slices per grid point with the weights
  transposed beforehand and takes heads as column blocks of 32, where the reference reshapes to a head axis and
  contracts all slices at once; every sum, maximum and quotient is the same operation on the same entries in the same
  order of operands. So no law beyond reading the layouts is needed, and the precondition is not used by the value
  claim: the two results agree on every input.

  The three frames: the kernel's two are the generated frame proofs; the reference has no kernel launch, and its frame
  is its run with the result dropped. The idealization rewrote nothing, so `preserves` is trivial.
-/
import proofs.«403390_j858993459582_3_alg».proof.Defs
import proofs.«403390_j858993459582_3_alg».proof.Proof.Gen.Kernel.Frame
import proofs.«403390_j858993459582_3_alg».proof.Proof.Gen.Pre_finite_inputs
import proofs.«403390_j858993459582_3_alg».proof.Proof.Gen.ReferenceIdeal.Run
import proofs.«403390_j858993459582_3_alg».proof.Proof.Blocks
import proofs.«403390_j858993459582_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the specification's result array `G` of the arguments: the kernel's by its blocks
    (`AttnRun.run`), the reference's by its operations read one at a time (`RefValue.result_eq`); the memories agree
    on the arguments. -/
theorem algebraic : Cert.algebraic_KernelIdeal_ReferenceIdeal := by
  intro m ρ m' ρ' _ hagree
  refine ⟨fun c => Cert.KernelIdeal.AttnRun.Gm m c, Cert.KernelIdeal.AttnRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
